-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S50000x128 : Shape := ⟨2, ![50000, 128]⟩
abbrev S128x128 : Shape := ⟨2, ![128, 128]⟩
abbrev S128 : Shape := ⟨1, ![128]⟩
abbrev S50000 : Shape := ⟨1, ![50000]⟩
abbrev S1000000 : Shape := ⟨1, ![1000000]⟩
abbrev S500000 : Shape := ⟨1, ![500000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000 : S_.BroadcastsInDim S50000 (![] : Fin 0 → Fin S50000.rank)
  reducesTo_S50000_S_d0 : S50000.ReducesTo [0] S_
  bcast_S_S1000000 : S_.BroadcastsInDim S1000000 (![] : Fin 0 → Fin S1000000.rank)
  reducesTo_S1000000_S_d0 : S1000000.ReducesTo [0] S_
  bcast_S_S500000 : S_.BroadcastsInDim S500000 (![] : Fin 0 → Fin S500000.rank)
  reducesTo_S500000_S_d0 : S500000.ReducesTo [0] S_

variable [Facts]

def fn_part3 {F : FTy → Type} [FloatOps F] (main_arg11 : IVec S1000000 32) (main_arg13 : IVec S500000 32) (main_v45 : IVec S_ 1) (main_v50 : IVec S1000000 1) : IVec S_ 1 :=
  let main_c_19 : IVec S_ 1 := constantI S_ 1 1#1
  let main_v51 : IVec S_ 1 := (fun x v => Host.reduce IntOp.andi x v reducesTo_S1000000_S_d0 h_S_) main_v50 main_c_19
  let main_v52 : IVec S_ 1 := andi main_v45 main_v51
  let main_c_20 : IVec S_ 32 := constantI S_ 32 0#32
  let main_v53 : IVec S1000000 32 := broadcastInDim S1000000 ![] bcast_S_S1000000 main_c_20
  let main_v54 : IVec S1000000 1 := cmpi .sge main_arg11 main_v53
  let main_c_21 : IVec S_ 32 := constantI S_ 32 50000#32
  let main_v55 : IVec S1000000 32 := broadcastInDim S1000000 ![] bcast_S_S1000000 main_c_21
  let main_v56 : IVec S1000000 1 := cmpi .slt main_arg11 main_v55
  let main_v57 : IVec S1000000 1 := andi main_v54 main_v56
  let main_c_22 : IVec S_ 1 := constantI S_ 1 1#1
  let main_v58 : IVec S_ 1 := (fun x v => Host.reduce IntOp.andi x v reducesTo_S1000000_S_d0 h_S_) main_v57 main_c_22
  let main_v59 : IVec S_ 1 := andi main_v52 main_v58
  let main_c_23 : IVec S_ 32 := constantI S_ 32 0#32
  let main_v60 : IVec S500000 32 := broadcastInDim S500000 ![] bcast_S_S500000 main_c_23
  let main_v61 : IVec S500000 1 := cmpi .sge main_arg13 main_v60
  let main_c_24 : IVec S_ 32 := constantI S_ 32 50000#32
  let main_v62 : IVec S500000 32 := broadcastInDim S500000 ![] bcast_S_S500000 main_c_24
  let main_v63 : IVec S500000 1 := cmpi .slt main_arg13 main_v62
  let main_v64 : IVec S500000 1 := andi main_v61 main_v63
  let main_c_25 : IVec S_ 1 := constantI S_ 1 1#1
  let main_v65 : IVec S_ 1 := (fun x v => Host.reduce IntOp.andi x v reducesTo_S500000_S_d0 h_S_) main_v64 main_c_25
  let main_v66 : IVec S_ 1 := andi main_v59 main_v65
  main_v66

def fn_part2 {F : FTy → Type} [FloatOps F] (main_arg7 : FVec F S128x128 .f32) (main_arg8 : IVec S50000 32) (main_arg9 : IVec S1000000 32) (main_arg11 : IVec S1000000 32) (main_arg13 : IVec S500000 32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_c_14 : IVec S_ 32 := constantI S_ 32 0#32
  let main_v39 : IVec S50000 32 := broadcastInDim S50000 ![] bcast_S_S50000 main_c_14
  let main_v40 : IVec S50000 1 := cmpi .sge main_arg8 main_v39
  let main_c_15 : IVec S_ 32 := constantI S_ 32 50000#32
  let main_v41 : IVec S50000 32 := broadcastInDim S50000 ![] bcast_S_S50000 main_c_15
  let main_v42 : IVec S50000 1 := cmpi .slt main_arg8 main_v41
  let main_v43 : IVec S50000 1 := andi main_v40 main_v42
  let main_c_16 : IVec S_ 1 := constantI S_ 1 1#1
  let main_v44 : IVec S_ 1 := (fun x v => Host.reduce IntOp.andi x v reducesTo_S50000_S_d0 h_S_) main_v43 main_c_16
  let main_v45 : IVec S_ 1 := andi main_v38 main_v44
  let main_c_17 : IVec S_ 32 := constantI S_ 32 0#32
  let main_v46 : IVec S1000000 32 := broadcastInDim S1000000 ![] bcast_S_S1000000 main_c_17
  let main_v47 : IVec S1000000 1 := cmpi .sge main_arg9 main_v46
  let main_c_18 : IVec S_ 32 := constantI S_ 32 200000#32
  let main_v48 : IVec S1000000 32 := broadcastInDim S1000000 ![] bcast_S_S1000000 main_c_18
  let main_v49 : IVec S1000000 1 := cmpi .slt main_arg9 main_v48
  let main_v50 : IVec S1000000 1 := andi main_v47 main_v49
  fn_part3 (F := F) main_arg11 main_arg13 main_v45 main_v50

def fn_part1 {F : FTy → Type} [FloatOps F] (main_arg4 : FVec F S128x128 .f32) (main_arg5 : FVec F S128x128 .f32) (main_arg6 : FVec F S128 .f32) (main_arg7 : FVec F S128x128 .f32) (main_arg8 : IVec S50000 32) (main_arg9 : IVec S1000000 32) (main_arg11 : IVec S1000000 32) (main_arg13 : IVec S500000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg11 main_arg13 main_v33

def fn {F : FTy → Type} [FloatOps F] (main_arg0 : FVec F S200000x128 .f32) (main_arg1 : FVec F S50000x128 .f32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : IVec S50000 32) (main_arg9 : IVec S1000000 32) (main_arg10 : IVec S1000000 32) (main_arg11 : IVec S1000000 32) (main_arg12 : IVec S1000000 32) (main_arg13 : IVec S500000 32) (main_arg14 : IVec S500000 32) (main_arg15 : IVec S500000 32) (main_arg16 : IVec S500000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg11 main_arg13 main_v13 main_v16
-- ==== Kernel.lean ====
abbrev S200000x128 : Shape := ⟨2, ![200000, 128]⟩
abbrev S50000x128 : Shape := ⟨2, ![50000, 128]⟩
abbrev S128x128 : Shape := ⟨2, ![128, 128]⟩
abbrev S128 : Shape := ⟨1, ![128]⟩
abbrev S50000 : Shape := ⟨1, ![50000]⟩
abbrev S1000000 : Shape := ⟨1, ![1000000]⟩
abbrev S500000 : Shape := ⟨1, ![500000]⟩
abbrev S_ : Shape := ⟨0, ![]⟩
abbrev S50000x1 : Shape := ⟨2, ![50000, 1]⟩
abbrev S1 : Shape := ⟨1, ![1]⟩
abbrev S1x1 : Shape := ⟨2, ![1, 1]⟩
abbrev S1000000x1 : Shape := ⟨2, ![1000000, 1]⟩
abbrev S1000000x128 : Shape := ⟨2, ![1000000, 128]⟩
abbrev S500000x1 : Shape := ⟨2, ![500000, 1]⟩
abbrev S500000x128 : Shape := ⟨2, ![500000, 128]⟩
abbrev S200000 : Shape := ⟨1, ![200000]⟩
abbrev S200000x1 : Shape := ⟨2, ![200000, 1]⟩
abbrev S2000x128 : Shape := ⟨2, ![2000, 128]⟩
abbrev S2000x1 : Shape := ⟨2, ![2000, 1]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 187
  | .vmem => 29
  | .smem => 0
  | _ => 0

abbrev hbmTy0_0 (i : Nat) : BufTy := match i % 128 with
  | 0 => ⟨S200000x128, .f32⟩
  | 1 => ⟨S50000x128, .f32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S50000, .i32⟩
  | 9 => ⟨S1000000, .i32⟩
  | 10 => ⟨S1000000, .i32⟩
  | 11 => ⟨S1000000, .i32⟩
  | 12 => ⟨S1000000, .i32⟩
  | 13 => ⟨S500000, .i32⟩
  | 14 => ⟨S500000, .i32⟩
  | 15 => ⟨S500000, .i32⟩
  | 16 => ⟨S500000, .i32⟩
  | 17 => ⟨S_, .i32⟩
  | 18 => ⟨S50000, .i32⟩
  | 19 => ⟨S50000, .i1⟩
  | 20 => ⟨S_, .i32⟩
  | 21 => ⟨S50000, .i32⟩
  | 22 => ⟨S50000, .i32⟩
  | 23 => ⟨S50000, .i32⟩
  | 24 => ⟨S50000x1, .i32⟩
  | 25 => ⟨S1, .i32⟩
  | 26 => ⟨S_, .i32⟩
  | 27 => ⟨S50000x1, .i32⟩
  | 28 => ⟨S50000x1, .i1⟩
  | 29 => ⟨S1x1, .i32⟩
  | 30 => ⟨S50000x1, .i32⟩
  | 31 => ⟨S50000x1, .i1⟩
  | 32 => ⟨S50000x1, .i1⟩
  | 33 => ⟨S_, .i1⟩
  | 34 => ⟨S50000, .i1⟩
  | 35 => ⟨S50000x128, .f32⟩
  | 36 => ⟨S50000x128, .i1⟩
  | 37 => ⟨S_, .f32⟩
  | 38 => ⟨S50000x128, .f32⟩
  | 39 => ⟨S50000x128, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1, .i32⟩
  | 49 => ⟨S_, .i32⟩
  | 50 => ⟨S1000000x1, .i32⟩
  | 51 => ⟨S1000000x1, .i1⟩
  | 52 => ⟨S1x1, .i32⟩
  | 53 => ⟨S1000000x1, .i32⟩
  | 54 => ⟨S1000000x1, .i1⟩
  | 55 => ⟨S1000000x1, .i1⟩
  | 56 => ⟨S_, .i1⟩
  | 57 => ⟨S1000000, .i1⟩
  | 58 => ⟨S1000000x128, .f32⟩
  | 59 => ⟨S1000000x128, .i1⟩
  | 60 => ⟨S_, .f32⟩
  | 61 => ⟨S1000000x128, .f32⟩
  | 62 => ⟨S1000000x128, .f32⟩
  | 63 => ⟨S_, .f32⟩
  | 64 => ⟨S50000x128, .f32⟩
  | 65 => ⟨S1000000x1, .i32⟩
  | 66 => ⟨S50000x128, .f32⟩
  | 67 => ⟨S_, .f32⟩
  | 68 => ⟨S1000000, .f32⟩
  | 69 => ⟨S_, .f32⟩
  | 70 => ⟨S50000, .f32⟩
  | 71 => ⟨S1000000x1, .i32⟩
  | 72 => ⟨S50000, .f32⟩
  | 73 => ⟨S_, .f32⟩
  | 74 => ⟨S50000, .f32⟩
  | 75 => ⟨S50000, .f32⟩
  | 76 => ⟨S_, .f32⟩
  | 77 => ⟨S50000, .f32⟩
  | 78 => ⟨S50000, .f32⟩
  | 79 => ⟨S50000x1, .f32⟩
  | 80 => ⟨S_, .i32⟩
  | 81 => ⟨S500000, .i32⟩
  | 82 => ⟨S500000, .i1⟩
  | 83 => ⟨S_, .i32⟩
  | 84 => ⟨S500000, .i32⟩
  | 85 => ⟨S500000, .i32⟩
  | 86 => ⟨S500000, .i32⟩
  | 87 => ⟨S500000x1, .i32⟩
  | 88 => ⟨S1, .i32⟩
  | 89 => ⟨S_, .i32⟩
  | 90 => ⟨S500000x1, .i32⟩
  | 91 => ⟨S500000x1, .i1⟩
  | 92 => ⟨S1x1, .i32⟩
  | 93 => ⟨S500000x1, .i32⟩
  | 94 => ⟨S500000x1, .i1⟩
  | 95 => ⟨S500000x1, .i1⟩
  | 96 => ⟨S_, .i1⟩
  | 97 => ⟨S500000, .i1⟩
  | 98 => ⟨S500000x128, .f32⟩
  | 99 => ⟨S500000x128, .i1⟩
  | 100 => ⟨S_, .f32⟩
  | 101 => ⟨S500000x128, .f32⟩
  | 102 => ⟨S500000x128, .f32⟩
  | 103 => ⟨S_, .f32⟩
  | 104 => ⟨S50000x128, .f32⟩
  | 105 => ⟨S500000x1, .i32⟩
  | 106 => ⟨S50000x128, .f32⟩
  | 107 => ⟨S_, .f32⟩
  | 108 => ⟨S500000, .f32⟩
  | 109 => ⟨S_, .f32⟩
  | 110 => ⟨S50000, .f32⟩
  | 111 => ⟨S500000x1, .i32⟩
  | 112 => ⟨S50000, .f32⟩
  | 113 => ⟨S_, .f32⟩
  | 114 => ⟨S50000, .f32⟩
  | 115 => ⟨S50000, .f32⟩
  | 116 => ⟨S_, .f32⟩
  | 117 => ⟨S50000, .f32⟩
  | 118 => ⟨S50000, .f32⟩
  | 119 => ⟨S50000x1, .f32⟩
  | 120 => ⟨S_, .i32⟩
  | 121 => ⟨S1000000, .i32⟩
  | 122 => ⟨S1000000, .i1⟩
  | 123 => ⟨S_, .i32⟩
  | 124 => ⟨S1000000, .i32⟩
  | 125 => ⟨S1000000, .i32⟩
  | 126 => ⟨S1000000, .i32⟩
  | 127 => ⟨S1000000x1, .i32⟩
  | _ => ⟨S200000x128, .f32⟩

abbrev hbmTy0_1 (i : Nat) : BufTy := match i % 128 with
  | 0 => ⟨S1, .i32⟩
  | 1 => ⟨S_, .i32⟩
  | 2 => ⟨S1000000x1, .i32⟩
  | 3 => ⟨S1000000x1, .i1⟩
  | 4 => ⟨S1x1, .i32⟩
  | 5 => ⟨S1000000x1, .i32⟩
  | 6 => ⟨S1000000x1, .i1⟩
  | 7 => ⟨S1000000x1, .i1⟩
  | 8 => ⟨S_, .i1⟩
  | 9 => ⟨S1000000, .i1⟩
  | 10 => ⟨S1000000x128, .f32⟩
  | 11 => ⟨S1000000x128, .i1⟩
  | 12 => ⟨S_, .f32⟩
  | 13 => ⟨S1000000x128, .f32⟩
  | 14 => ⟨S1000000x128, .f32⟩
  | 15 => ⟨S_, .f32⟩
  | 16 => ⟨S200000x128, .f32⟩
  | 17 => ⟨S1000000x1, .i32⟩
  | 18 => ⟨S200000x128, .f32⟩
  | 19 => ⟨S_, .f32⟩
  | 20 => ⟨S1000000, .f32⟩
  | 21 => ⟨S_, .f32⟩
  | 22 => ⟨S200000, .f32⟩
  | 23 => ⟨S1000000x1, .i32⟩
  | 24 => ⟨S200000, .f32⟩
  | 25 => ⟨S_, .f32⟩
  | 26 => ⟨S200000, .f32⟩
  | 27 => ⟨S200000, .f32⟩
  | 28 => ⟨S_, .f32⟩
  | 29 => ⟨S200000, .f32⟩
  | 30 => ⟨S200000, .f32⟩
  | 31 => ⟨S200000x1, .f32⟩
  | 32 => ⟨S128x128, .f32⟩
  | 33 => ⟨S128x128, .f32⟩
  | 34 => ⟨S128x128, .f32⟩
  | 35 => ⟨S128x128, .f32⟩
  | 36 => ⟨S50000x128, .f32⟩
  | 37 => ⟨S200000x128, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x128, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x128, .f32⟩
  | 56 => ⟨S500000x128, .f32⟩
  | 57 => ⟨S_, .f32⟩
  | 58 => ⟨S500000, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S4000x128, .f32⟩
  | .local _ .vmem, ⟨19, _⟩ => ⟨S4000x128, .f32⟩
  | .local _ .vmem, ⟨20, _⟩ => ⟨S4000x1, .f32⟩
  | .local _ .vmem, ⟨21, _⟩ => ⟨S4000x1, .f32⟩
  | .local _ .vmem, ⟨22, _⟩ => ⟨S4000x128, .f32⟩
  | .local _ .vmem, ⟨23, _⟩ => ⟨S4000x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S4000x128, .f32⟩
  | .local _ .vmem, ⟨28, _⟩ => ⟨S4000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v1 : Ref sig .tc := ⟨.hbm, 62, rfl⟩
abbrev main_cst : Ref sig .tc := ⟨.hbm, 63, rfl⟩
abbrev main_v2 : Ref sig .tc := ⟨.hbm, 64, rfl⟩
abbrev main_v3 : Ref sig .tc := ⟨.hbm, 65, rfl⟩
abbrev main_v4 : Ref sig .tc := ⟨.hbm, 66, rfl⟩
abbrev main_cst_0 : Ref sig .tc := ⟨.hbm, 67, rfl⟩
abbrev main_v5 : Ref sig .tc := ⟨.hbm, 68, rfl⟩
abbrev main_cst_1 : Ref sig .tc := ⟨.hbm, 69, rfl⟩
abbrev main_v6 : Ref sig .tc := ⟨.hbm, 70, rfl⟩
abbrev main_v7 : Ref sig .tc := ⟨.hbm, 71, rfl⟩
abbrev main_v8 : Ref sig .tc := ⟨.hbm, 72, rfl⟩
abbrev main_cst_2 : Ref sig .tc := ⟨.hbm, 73, rfl⟩
abbrev main_v9 : Ref sig .tc := ⟨.hbm, 74, rfl⟩
abbrev main_v10 : Ref sig .tc := ⟨.hbm, 75, rfl⟩
abbrev main_cst_3 : Ref sig .tc := ⟨.hbm, 76, rfl⟩
abbrev main_v11 : Ref sig .tc := ⟨.hbm, 77, rfl⟩
abbrev main_v12 : Ref sig .tc := ⟨.hbm, 78, rfl⟩
abbrev main_v13 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v14 : Ref sig .tc := ⟨.hbm, 102, rfl⟩
abbrev main_cst_4 : Ref sig .tc := ⟨.hbm, 103, rfl⟩
abbrev main_v15 : Ref sig .tc := ⟨.hbm, 104, rfl⟩
abbrev main_v16 : Ref sig .tc := ⟨.hbm, 105, rfl⟩
abbrev main_v17 : Ref sig .tc := ⟨.hbm, 106, rfl⟩
abbrev main_cst_5 : Ref sig .tc := ⟨.hbm, 107, rfl⟩
abbrev main_v18 : Ref sig .tc := ⟨.hbm, 108, rfl⟩
abbrev main_cst_6 : Ref sig .tc := ⟨.hbm, 109, rfl⟩
abbrev main_v19 : Ref sig .tc := ⟨.hbm, 110, rfl⟩
abbrev main_v20 : Ref sig .tc := ⟨.hbm, 111, rfl⟩
abbrev main_v21 : Ref sig .tc := ⟨.hbm, 112, rfl⟩
abbrev main_cst_7 : Ref sig .tc := ⟨.hbm, 113, rfl⟩
abbrev main_v22 : Ref sig .tc := ⟨.hbm, 114, rfl⟩
abbrev main_v23 : Ref sig .tc := ⟨.hbm, 115, rfl⟩
abbrev main_cst_8 : Ref sig .tc := ⟨.hbm, 116, rfl⟩
abbrev main_v24 : Ref sig .tc := ⟨.hbm, 117, rfl⟩
abbrev main_v25 : Ref sig .tc := ⟨.hbm, 118, rfl⟩
abbrev main_v26 : Ref sig .tc := ⟨.hbm, 119, rfl⟩
abbrev main_call3_c : Ref sig .tc := ⟨.hbm, 120, rfl⟩
abbrev main_call3_v0 : Ref sig .tc := ⟨.hbm, 121, rfl⟩
abbrev main_call3_v1 : Ref sig .tc := ⟨.hbm, 122, rfl⟩
abbrev main_call3_c_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_c_1 : Ref sig .tc := ⟨.hbm, 128, rfl⟩
abbrev main_call3_c_2 : Ref sig .tc := ⟨.hbm, 129, rfl⟩
abbrev main_call3_v6 : Ref sig .tc := ⟨.hbm, 130, rfl⟩
abbrev main_call3_v7 : Ref sig .tc := ⟨.hbm, 131, rfl⟩
abbrev main_call3_v8 : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_c_3 : Ref sig .tc := ⟨.hbm, 136, rfl⟩
abbrev main_call3_v12 : Ref sig .tc := ⟨.hbm, 137, rfl⟩
abbrev main_call3_v13 : Ref sig .tc := ⟨.hbm, 138, rfl⟩
abbrev main_call3_v14 : Ref sig .tc := ⟨.hbm, 139, rfl⟩
abbrev main_call3_cst : Ref sig .tc := ⟨.hbm, 140, rfl⟩
abbrev main_call3_v15 : Ref sig .tc := ⟨.hbm, 141, rfl⟩
abbrev main_v27 : Ref sig .tc := ⟨.hbm, 142, rfl⟩
abbrev main_cst_9 : Ref sig .tc := ⟨.hbm, 143, rfl⟩
abbrev main_v28 : Ref sig .tc := ⟨.hbm, 144, rfl⟩
abbrev main_v29 : Ref sig .tc := ⟨.hbm, 145, rfl⟩
abbrev main_v30 : Ref sig .tc := ⟨.hbm, 146, rfl⟩
abbrev main_cst_10 : Ref sig .tc := ⟨.hbm, 147, rfl⟩
abbrev main_v31 : Ref sig .tc := ⟨.hbm, 148, rfl⟩
abbrev main_cst_11 : Ref sig .tc := ⟨.hbm, 149, rfl⟩
abbrev main_v32 : Ref sig .tc := ⟨.hbm, 150, rfl⟩
abbrev main_v33 : Ref sig .tc := ⟨.hbm, 151, rfl⟩
abbrev main_v34 : Ref sig .tc := ⟨.hbm, 152, rfl⟩
abbrev main_cst_12 : Ref sig .tc := ⟨.hbm, 153, rfl⟩
abbrev main_v35 : Ref sig .tc := ⟨.hbm, 154, rfl⟩
abbrev main_v36 : Ref sig .tc := ⟨.hbm, 155, rfl⟩
abbrev main_cst_13 : Ref sig .tc := ⟨.hbm, 156, rfl⟩
abbrev main_v37 : Ref sig .tc := ⟨.hbm, 157, rfl⟩
abbrev main_v38 : Ref sig .tc := ⟨.hbm, 158, rfl⟩
abbrev main_v39 : Ref sig .tc := ⟨.hbm, 159, rfl⟩
abbrev main_v40 : Ref sig .tc := ⟨.hbm, 160, rfl⟩
abbrev main_v41 : Ref sig .tc := ⟨.hbm, 161, rfl⟩
abbrev main_v42 : Ref sig .tc := ⟨.hbm, 162, rfl⟩
abbrev main_v43 : Ref sig .tc := ⟨.hbm, 163, rfl⟩
abbrev main_v44 : Ref sig .tc := ⟨.hbm, 164, rfl⟩
abbrev main_v45 : Ref sig .tc := ⟨.hbm, 165, rfl⟩
abbrev main_c : Ref sig .tc := ⟨.hbm, 166, rfl⟩
abbrev main_v46 : Ref sig .tc := ⟨.hbm, 167, rfl⟩
abbrev main_v47 : Ref sig .tc := ⟨.hbm, 168, rfl⟩
abbrev main_c_14 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_c_15 : Ref sig .tc := ⟨.hbm, 175, rfl⟩
abbrev main_v53 : Ref sig .tc := ⟨.hbm, 176, rfl⟩
abbrev main_v54 : Ref sig .tc := ⟨.hbm, 177, rfl⟩
abbrev main_c_16 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_v58 : Ref sig .tc := ⟨.hbm, 182, rfl⟩
abbrev main_v59 : Ref sig .tc := ⟨.hbm, 183, rfl⟩
abbrev main_v60 : Ref sig .tc := ⟨.hbm, 184, rfl⟩
abbrev main_cst_17 : Ref sig .tc := ⟨.hbm, 185, rfl⟩
abbrev main_v61 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem6_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x128_0 : S50000.BroadcastsInDim S50000x128 (![0] : Fin 1 → Fin S50000x128.rank)
  bcast_S_S50000x128 : S_.BroadcastsInDim S50000x128 (![] : Fin 0 → Fin S50000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1x1_S1000000x1_0_1 : S1x1.BroadcastsInDim S1000000x1 (![0, 1] : Fin 2 → Fin S1000000x1.rank)
  reducesTo_S1000000x1_S1000000_d1 : S1000000x1.ReducesTo [1] S1000000
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1x1_S500000x1_0_1 : S1x1.BroadcastsInDim S500000x1 (![0, 1] : Fin 2 → Fin S500000x1.rank)
  reducesTo_S500000x1_S500000_d1 : S500000x1.ReducesTo [1] S500000
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  broadcasts_S1x128_S4000x128 : S1x128.Broadcasts S4000x128
  reducesTo_S500000x128_S500000_d1 : S500000x128.ReducesTo [1] S500000
  gather_S50000x128_S50000x1_S50000x128_1_0_n_n_0_1_1128_wf : GatherDims.WF S50000x128 S50000x1 S50000x128 [1] [0] [] [0] [] 1 ![1, 128]
  gather_S200000x128_S1000000x1_S1000000x128_1_0_n_n_0_1_1128_wf : GatherDims.WF S200000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  gather_S50000x128_S1000000x1_S1000000x128_1_0_n_n_0_1_1128_wf : GatherDims.WF S50000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S2000x128_S128x128_S2000x128_1_0_0_1_n_n_wf : DotDims.WF S2000x128 S128x128 S2000x128 [1] [0] [0] [1] [] []
  dot_S4000x128_S128x128_S4000x128_1_0_0_1_n_n_wf : DotDims.WF S4000x128 S128x128 S4000x128 [1] [0] [0] [1] [] []
  gather_S200000x128_S500000x1_S500000x128_1_0_n_n_0_1_1128_wf : GatherDims.WF S200000x128 S500000x1 S500000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S200000x1.size a
  hwx1_1 : ∀ i : grid1.Coords, EltTy.bits .f32 = 32 ∨ (Rect.block (s := S200000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S200000x128.size a
  hwx1_2 : ∀ i : grid1.Coords, EltTy.bits .f32 = 32 ∨ (Rect.block (s := S200000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S200000x128.size a
  hwx1_6 : ∀ i : grid1.Coords, EltTy.bits .f32 = 32 ∨ (Rect.block (s := S200000x128) S4000x128.size (cc1_transform_6 i) (hinb1_6 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf

abbrev win0_0 : Pipeline.Window sig grid0 :=
  Pipeline.Window.ofSpec (Memref.whole main_v4) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v43) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v30) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S200000x128 : Shape := ⟨2, ![200000, 128]⟩
abbrev S50000x128 : Shape := ⟨2, ![50000, 128]⟩
abbrev S128x128 : Shape := ⟨2, ![128, 128]⟩
abbrev S128 : Shape := ⟨1, ![128]⟩
abbrev S50000 : Shape := ⟨1, ![50000]⟩
abbrev S1000000 : Shape := ⟨1, ![1000000]⟩
abbrev S500000 : Shape := ⟨1, ![500000]⟩
abbrev S_ : Shape := ⟨0, ![]⟩
abbrev S50000x1 : Shape := ⟨2, ![50000, 1]⟩
abbrev S1000000x1 : Shape := ⟨2, ![1000000, 1]⟩
abbrev S1000000x128 : Shape := ⟨2, ![1000000, 128]⟩
abbrev S1x128 : Shape := ⟨2, ![1, 128]⟩
abbrev S500000x1 : Shape := ⟨2, ![500000, 1]⟩
abbrev S500000x128 : Shape := ⟨2, ![500000, 128]⟩
abbrev S200000 : Shape := ⟨1, ![200000]⟩
abbrev S200000x1 : Shape := ⟨2, ![200000, 1]⟩

abbrev nBuf : Space → Nat
  | .hbm => 153
  | .vmem => 0
  | .smem => 0
  | _ => 0

abbrev hbmTy0_0 (i : Nat) : BufTy := match i % 128 with
  | 0 => ⟨S200000x128, .f32⟩
  | 1 => ⟨S50000x128, .f32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S50000, .i32⟩
  | 9 => ⟨S1000000, .i32⟩
  | 10 => ⟨S1000000, .i32⟩
  | 11 => ⟨S1000000, .i32⟩
  | 12 => ⟨S1000000, .i32⟩
  | 13 => ⟨S500000, .i32⟩
  | 14 => ⟨S500000, .i32⟩
  | 15 => ⟨S500000, .i32⟩
  | 16 => ⟨S500000, .i32⟩
  | 17 => ⟨S_, .i32⟩
  | 18 => ⟨S50000, .i32⟩
  | 19 => ⟨S50000, .i1⟩
  | 20 => ⟨S_, .i32⟩
  | 21 => ⟨S50000, .i32⟩
  | 22 => ⟨S50000, .i32⟩
  | 23 => ⟨S50000, .i32⟩
  | 24 => ⟨S50000x1, .i32⟩
  | 25 => ⟨S50000x128, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x128, .f32⟩
  | 35 => ⟨S_, .f32⟩
  | 36 => ⟨S50000x128, .f32⟩
  | 37 => ⟨S1000000x1, .i32⟩
  | 38 => ⟨S50000x128, .f32⟩
  | 39 => ⟨S_, .f32⟩
  | 40 => ⟨S1000000, .f32⟩
  | 41 => ⟨S_, .f32⟩
  | 42 => ⟨S50000, .f32⟩
  | 43 => ⟨S1000000x1, .i32⟩
  | 44 => ⟨S50000, .f32⟩
  | 45 => ⟨S_, .f32⟩
  | 46 => ⟨S50000, .f32⟩
  | 47 => ⟨S50000, .f32⟩
  | 48 => ⟨S50000x1, .f32⟩
  | 49 => ⟨S50000x128, .f32⟩
  | 50 => ⟨S50000x128, .f32⟩
  | 51 => ⟨S128x128, .f32⟩
  | 52 => ⟨S50000x128, .f32⟩
  | 53 => ⟨S1x128, .f32⟩
  | 54 => ⟨S50000x128, .f32⟩
  | 55 => ⟨S50000x128, .f32⟩
  | 56 => ⟨S128x128, .f32⟩
  | 57 => ⟨S50000x128, .f32⟩
  | 58 => ⟨S50000x128, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x128, .f32⟩
  | 68 => ⟨S_, .f32⟩
  | 69 => ⟨S50000x128, .f32⟩
  | 70 => ⟨S500000x1, .i32⟩
  | 71 => ⟨S50000x128, .f32⟩
  | 72 => ⟨S_, .f32⟩
  | 73 => ⟨S500000, .f32⟩
  | 74 => ⟨S_, .f32⟩
  | 75 => ⟨S50000, .f32⟩
  | 76 => ⟨S500000x1, .i32⟩
  | 77 => ⟨S50000, .f32⟩
  | 78 => ⟨S_, .f32⟩
  | 79 => ⟨S50000, .f32⟩
  | 80 => ⟨S50000, .f32⟩
  | 81 => ⟨S50000x1, .f32⟩
  | 82 => ⟨S50000x128, .f32⟩
  | 83 => ⟨S50000x128, .f32⟩
  | 84 => ⟨S128x128, .f32⟩
  | 85 => ⟨S50000x128, .f32⟩
  | 86 => ⟨S1x128, .f32⟩
  | 87 => ⟨S50000x128, .f32⟩
  | 88 => ⟨S50000x128, .f32⟩
  | 89 => ⟨S128x128, .f32⟩
  | 90 => ⟨S50000x128, .f32⟩
  | 91 => ⟨S50000x128, .f32⟩
  | 92 => ⟨S50000x128, .f32⟩
  | 93 => ⟨S_, .i32⟩
  | 94 => ⟨S1000000, .i32⟩
  | 95 => ⟨S1000000, .i1⟩
  | 96 => ⟨S_, .i32⟩
  | 97 => ⟨S1000000, .i32⟩
  | 98 => ⟨S1000000, .i32⟩
  | 99 => ⟨S1000000, .i32⟩
  | 100 => ⟨S1000000x1, .i32⟩
  | 101 => ⟨S1000000x128, .f32⟩
  | 102 => ⟨S_, .f32⟩
  | 103 => ⟨S200000x128, .f32⟩
  | 104 => ⟨S1000000x1, .i32⟩
  | 105 => ⟨S200000x128, .f32⟩
  | 106 => ⟨S_, .f32⟩
  | 107 => ⟨S1000000, .f32⟩
  | 108 => ⟨S_, .f32⟩
  | 109 => ⟨S200000, .f32⟩
  | 110 => ⟨S1000000x1, .i32⟩
  | 111 => ⟨S200000, .f32⟩
  | 112 => ⟨S_, .f32⟩
  | 113 => ⟨S200000, .f32⟩
  | 114 => ⟨S200000, .f32⟩
  | 115 => ⟨S200000x1, .f32⟩
  | 116 => ⟨S200000x128, .f32⟩
  | 117 => ⟨S200000x128, .f32⟩
  | 118 => ⟨S128x128, .f32⟩
  | 119 => ⟨S200000x128, .f32⟩
  | 120 => ⟨S1x128, .f32⟩
  | 121 => ⟨S200000x128, .f32⟩
  | 122 => ⟨S200000x128, .f32⟩
  | 123 => ⟨S128x128, .f32⟩
  | 124 => ⟨S200000x128, .f32⟩
  | 125 => ⟨S200000x128, .f32⟩
  | 126 => ⟨S_, .f32⟩
  | 127 => ⟨S200000x128, .f32⟩
  | _ => ⟨S200000x128, .f32⟩

abbrev hbmTy0_1 (i : Nat) : BufTy := match i % 128 with
  | 0 => ⟨S200000x128, .f32⟩
  | 1 => ⟨S_, .f32⟩
  | 2 => ⟨S50000x128, .f32⟩
  | 3 => ⟨S50000x128, .f32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S500000x1, .i32⟩
  | 12 => ⟨S500000x128, .f32⟩
  | 13 => ⟨S_, .i32⟩
  | 14 => ⟨S500000, .i32⟩
  | 15 => ⟨S500000, .i1⟩
  | 16 => ⟨S_, .i32⟩
  | 17 => ⟨S500000, .i32⟩
  | 18 => ⟨S500000, .i32⟩
  | 19 => ⟨S500000, .i32⟩
  | 20 => ⟨S500000x1, .i32⟩
  | 21 => ⟨S500000x128, .f32⟩
  | 22 => ⟨S500000x128, .f32⟩
  | 23 => ⟨S_, .f32⟩
  | 24 => ⟨S500000, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_cst_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_c_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_9 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_11 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_12 : Ref sig .tc := ⟨.hbm, 93, rfl⟩
abbrev main_v62 : Ref sig .tc := ⟨.hbm, 94, rfl⟩
abbrev main_v63 : Ref sig .tc := ⟨.hbm, 95, rfl⟩
abbrev main_c_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_cst_16 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_17 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_call0_cst : Ref sig .tc := ⟨.hbm, 126, rfl⟩
abbrev main_call0_v0 : Ref sig .tc := ⟨.hbm, 127, rfl⟩
abbrev main_v89 : Ref sig .tc := ⟨.hbm, 128, rfl⟩
abbrev main_call1_cst : Ref sig .tc := ⟨.hbm, 129, rfl⟩
abbrev main_call1_v0 : Ref sig .tc := ⟨.hbm, 130, rfl⟩
abbrev main_v90 : Ref sig .tc := ⟨.hbm, 131, rfl⟩
abbrev main_c_18 : Ref sig .tc := ⟨.hbm, 132, rfl⟩
abbrev main_v91 : Ref sig .tc := ⟨.hbm, 133, rfl⟩
abbrev main_v92 : Ref sig .tc := ⟨.hbm, 134, rfl⟩
abbrev main_c_19 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_20 : Ref sig .tc := ⟨.hbm, 141, rfl⟩
abbrev main_v98 : Ref sig .tc := ⟨.hbm, 142, rfl⟩
abbrev main_v99 : Ref sig .tc := ⟨.hbm, 143, rfl⟩
abbrev main_c_21 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_22 : Ref sig .tc := ⟨.hbm, 151, rfl⟩
abbrev main_v106 : Ref sig .tc := ⟨.hbm, 152, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S1x128_S200000x128_0_1 : S1x128.BroadcastsInDim S200000x128 (![0, 1] : Fin 2 → Fin S200000x128.rank)
  reducesTo_S500000x128_S500000_d1 : S500000x128.ReducesTo [1] S500000
  h_S_ : 0 < S_.numel
  gather_S50000x128_S50000x1_S50000x128_1_0_n_n_0_1_1128_wf : GatherDims.WF S50000x128 S50000x1 S50000x128 [1] [0] [] [0] [] 1 ![1, 128]
  gather_S200000x128_S1000000x1_S1000000x128_1_0_n_n_0_1_1128_wf : GatherDims.WF S200000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  gather_S50000x128_S1000000x1_S1000000x128_1_0_n_n_0_1_1128_wf : GatherDims.WF S50000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S200000x128_S128x128_S200000x128_1_0_0_1_n_n_wf : DotDims.WF S200000x128 S128x128 S200000x128 [1] [0] [0] [1] [] []
  gather_S200000x128_S500000x1_S500000x128_1_0_n_n_0_1_1128_wf : GatherDims.WF S200000x128 S500000x1 S500000x128 [1] [0] [] [0] [] 1 ![1, 128]

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf

class Facts : Prop extends Facts₀ where

variable [Facts]
-- ==== Proof.KHostDefs.lean ====
/-
  The array operations the kernel's program runs outside its two tiled stages, as functions of the arrays they read.

  Four lookups of rows by an index array (each fills a row whose index is outside the table with a fill value),
  three sums of looked-up rows into destination rows with the count of arrivals per destination (at least one) and
  the reciprocal of that count, the transposes of the weight matrices, and the closing inner products of looked-up
  result rows.
-/
import proofs.«430606_j11141145166498_3_alg».proof.KernelIdeal

noncomputable section

namespace Cert.KHost

open Idealize.ShloMosaic Cert.KernelIdeal

variable {F : FTy → Type} [FloatOps F] [Cert.KernelIdeal.Facts]
open Cert.KernelIdeal.Facts₀ Cert.KernelIdeal.Facts

/-- Lookup 0: the index column (a negative index counted from the end, as written). -/
def col0 (x : IVec S50000 32) : IVec S50000x1 32 :=
  broadcastInDim S50000x1 ![0] bcast_S50000_S50000x1_0 (select (cmpi .slt x (broadcastInDim S50000 ![] bcast_S_S50000 (constantI S_ 32 0#32))) (addi x (broadcastInDim S50000 ![] bcast_S_S50000 (constantI S_ 32 50000#32))) x)

/-- Lookup 0: which rows' indices lie inside the table, spread over the row. -/
def mask0 (x : IVec S50000 32) : IVec S50000x128 1 :=
  broadcastInDim S50000x128 ![0] bcast_S50000_S50000x128_0 (Host.reduce IntOp.andi (andi (cmpi .sge (col0 x) (broadcastInDim S50000x1 ![] bcast_S_S50000x1 (constantI S_ 32 0#32))) (cmpi .sle (col0 x) (broadcastInDim S50000x1 ![0, 1] bcast_S1x1_S50000x1_0_1 (broadcastInDim S1x1 ![1] bcast_S1_S1x1_1 (constantI S1 32 49999#32))))) (constantI S_ 1 1#1) reducesTo_S50000x1_S50000_d1 h_S_)

/-- Lookup 0: the looked-up rows where the index lies inside the table, a fill value elsewhere. -/
def take0 (t : FVec F S50000x128 .f32) (x : IVec S50000 32) : FVec F S50000x128 .f32 :=
  select (mask0 x) (Host.gather gather_S50000x128_S50000x1_S50000x128_1_0_n_n_0_1_1128 t (col0 x)) (broadcastInDim S50000x128 ![] bcast_S_S50000x128 (constant S_ .f32 0x7FC00000#32))

/-- Lookup 1: the index column (a negative index counted from the end, as written). -/
def col1 (x : IVec S1000000 32) : IVec S1000000x1 32 :=
  broadcastInDim S1000000x1 ![0] bcast_S1000000_S1000000x1_0 (select (cmpi .slt x (broadcastInDim S1000000 ![] bcast_S_S1000000 (constantI S_ 32 0#32))) (addi x (broadcastInDim S1000000 ![] bcast_S_S1000000 (constantI S_ 32 200000#32))) x)

/-- Lookup 1: which rows' indices lie inside the table, spread over the row. -/
def mask1 (x : IVec S1000000 32) : IVec S1000000x128 1 :=
  broadcastInDim S1000000x128 ![0] bcast_S1000000_S1000000x128_0 (Host.reduce IntOp.andi (andi (cmpi .sge (col1 x) (broadcastInDim S1000000x1 ![] bcast_S_S1000000x1 (constantI S_ 32 0#32))) (cmpi .sle (col1 x) (broadcastInDim S1000000x1 ![0, 1] bcast_S1x1_S1000000x1_0_1 (broadcastInDim S1x1 ![1] bcast_S1_S1x1_1 (constantI S1 32 199999#32))))) (constantI S_ 1 1#1) reducesTo_S1000000x1_S1000000_d1 h_S_)

/-- Lookup 1: the looked-up rows where the index lies inside the table, a fill value elsewhere. -/
def take1 (t : FVec F S200000x128 .f32) (x : IVec S1000000 32) : FVec F S1000000x128 .f32 :=
  select (mask1 x) (Host.gather gather_S200000x128_S1000000x1_S1000000x128_1_0_n_n_0_1_1128 t (col1 x)) (broadcastInDim S1000000x128 ![] bcast_S_S1000000x128 (constant S_ .f32 0x7FC00000#32))

/-- Lookup 2: the index column (a negative index counted from the end, as written). -/
def col2 (x : IVec S500000 32) : IVec S500000x1 32 :=
  broadcastInDim S500000x1 ![0] bcast_S500000_S500000x1_0 (select (cmpi .slt x (broadcastInDim S500000 ![] bcast_S_S500000 (constantI S_ 32 0#32))) (addi x (broadcastInDim S500000 ![] bcast_S_S500000 (constantI S_ 32 50000#32))) x)

/-- Lookup 2: which rows' indices lie inside the table, spread over the row. -/
def mask2 (x : IVec S500000 32) : IVec S500000x128 1 :=
  broadcastInDim S500000x128 ![0] bcast_S500000_S500000x128_0 (Host.reduce IntOp.andi (andi (cmpi .sge (col2 x) (broadcastInDim S500000x1 ![] bcast_S_S500000x1 (constantI S_ 32 0#32))) (cmpi .sle (col2 x) (broadcastInDim S500000x1 ![0, 1] bcast_S1x1_S500000x1_0_1 (broadcastInDim S1x1 ![1] bcast_S1_S1x1_1 (constantI S1 32 49999#32))))) (constantI S_ 1 1#1) reducesTo_S500000x1_S500000_d1 h_S_)

/-- Lookup 2: the looked-up rows where the index lies inside the table, a fill value elsewhere. -/
def take2 (t : FVec F S50000x128 .f32) (x : IVec S500000 32) : FVec F S500000x128 .f32 :=
  select (mask2 x) (Host.gather gather_S50000x128_S500000x1_S500000x128_1_0_n_n_0_1_1128 t (col2 x)) (broadcastInDim S500000x128 ![] bcast_S_S500000x128 (constant S_ .f32 0x7FC00000#32))

/-- Lookup 3: the index column (a negative index counted from the end, as written). -/
def col3 (x : IVec S1000000 32) : IVec S1000000x1 32 :=
  broadcastInDim S1000000x1 ![0] bcast_S1000000_S1000000x1_0 (select (cmpi .slt x (broadcastInDim S1000000 ![] bcast_S_S1000000 (constantI S_ 32 0#32))) (addi x (broadcastInDim S1000000 ![] bcast_S_S1000000 (constantI S_ 32 50000#32))) x)

/-- Lookup 3: which rows' indices lie inside the table, spread over the row. -/
def mask3 (x : IVec S1000000 32) : IVec S1000000x128 1 :=
  broadcastInDim S1000000x128 ![0] bcast_S1000000_S1000000x128_0 (Host.reduce IntOp.andi (andi (cmpi .sge (col3 x) (broadcastInDim S1000000x1 ![] bcast_S_S1000000x1 (constantI S_ 32 0#32))) (cmpi .sle (col3 x) (broadcastInDim S1000000x1 ![0, 1] bcast_S1x1_S1000000x1_0_1 (broadcastInDim S1x1 ![1] bcast_S1_S1x1_1 (constantI S1 32 49999#32))))) (constantI S_ 1 1#1) reducesTo_S1000000x1_S1000000_d1 h_S_)

/-- Lookup 3: the looked-up rows where the index lies inside the table, a fill value elsewhere. -/
def take3 (t : FVec F S50000x128 .f32) (x : IVec S1000000 32) : FVec F S1000000x128 .f32 :=
  select (mask3 x) (Host.gather gather_S50000x128_S1000000x1_S1000000x128_1_0_n_n_0_1_1128 t (col3 x)) (broadcastInDim S1000000x128 ![] bcast_S_S1000000x128 (constant S_ .f32 0x7FC00000#32))

/-- Aggregate 1: the looked-up rows summed into their destination rows. -/
def agg1 (u : FVec F S1000000x128 .f32) (dst : IVec S1000000 32) : FVec F S50000x128 .f32 :=
  Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 dst) u

/-- Aggregate 1: how many edges arrive at each destination row, taken as at least one. -/
def cnt1 (dst : IVec S1000000 32) : FVec F S50000 .f32 :=
  maximumf (Host.scatterAdd scatter_S50000_S1000000x1_S1000000_n_0_0_1 (broadcastInDim S50000 ![] bcast_S_S50000 (constant S_ .f32 0x00000000#32)) (broadcastInDim S1000000x1 ![0] bcast_S1000000_S1000000x1_0 dst) (broadcastInDim S1000000 ![] bcast_S_S1000000 (constant S_ .f32 0x3F800000#32))) (broadcastInDim S50000 ![] bcast_S_S50000 (constant S_ .f32 0x3F800000#32))

/-- Aggregate 1: the column of reciprocals of those counts. -/
def inv1 (dst : IVec S1000000 32) : FVec F S50000x1 .f32 :=
  broadcastInDim S50000x1 ![0] bcast_S50000_S50000x1_0 (Host.divf (broadcastInDim S50000 ![] bcast_S_S50000 (constant S_ .f32 0x3F800000#32)) (cnt1 (F := F) dst))

/-- Aggregate 2: the looked-up rows summed into their destination rows. -/
def agg2 (u : FVec F S500000x128 .f32) (dst : IVec S500000 32) : FVec F S50000x128 .f32 :=
  Host.scatterAdd scatter_S50000x128_S500000x1_S500000x128_1_0_0_1 (broadcastInDim S50000x128 ![] bcast_S_S50000x128 (constant S_ .f32 0x00000000#32)) (broadcastInDim S500000x1 ![0] bcast_S500000_S500000x1_0 dst) u

/-- Aggregate 2: how many edges arrive at each destination row, taken as at least one. -/
def cnt2 (dst : IVec S500000 32) : FVec F S50000 .f32 :=
  maximumf (Host.scatterAdd scatter_S50000_S500000x1_S500000_n_0_0_1 (broadcastInDim S50000 ![] bcast_S_S50000 (constant S_ .f32 0x00000000#32)) (broadcastInDim S500000x1 ![0] bcast_S500000_S500000x1_0 dst) (broadcastInDim S500000 ![] bcast_S_S500000 (constant S_ .f32 0x3F800000#32))) (broadcastInDim S50000 ![] bcast_S_S50000 (constant S_ .f32 0x3F800000#32))

/-- Aggregate 2: the column of reciprocals of those counts. -/
def inv2 (dst : IVec S500000 32) : FVec F S50000x1 .f32 :=
  broadcastInDim S50000x1 ![0] bcast_S50000_S50000x1_0 (Host.divf (broadcastInDim S50000 ![] bcast_S_S50000 (constant S_ .f32 0x3F800000#32)) (cnt2 (F := F) dst))

/-- Aggregate 3: the looked-up rows summed into their destination rows. -/
def agg3 (u : FVec F S1000000x128 .f32) (dst : IVec S1000000 32) : FVec F S200000x128 .f32 :=
  Host.scatterAdd scatter_S200000x128_S1000000x1_S1000000x128_1_0_0_1 (broadcastInDim S200000x128 ![] bcast_S_S200000x128 (constant S_ .f32 0x00000000#32)) (broadcastInDim S1000000x1 ![0] bcast_S1000000_S1000000x1_0 dst) u

/-- Aggregate 3: how many edges arrive at each destination row, taken as at least one. -/
def cnt3 (dst : IVec S1000000 32) : FVec F S200000 .f32 :=
  maximumf (Host.scatterAdd scatter_S200000_S1000000x1_S1000000_n_0_0_1 (broadcastInDim S200000 ![] bcast_S_S200000 (constant S_ .f32 0x00000000#32)) (broadcastInDim S1000000x1 ![0] bcast_S1000000_S1000000x1_0 dst) (broadcastInDim S1000000 ![] bcast_S_S1000000 (constant S_ .f32 0x3F800000#32))) (broadcastInDim S200000 ![] bcast_S_S200000 (constant S_ .f32 0x3F800000#32))

/-- Aggregate 3: the column of reciprocals of those counts. -/
def inv3 (dst : IVec S1000000 32) : FVec F S200000x1 .f32 :=
  broadcastInDim S200000x1 ![0] bcast_S200000_S200000x1_0 (Host.divf (broadcastInDim S200000 ![] bcast_S_S200000 (constant S_ .f32 0x3F800000#32)) (cnt3 (F := F) dst))

/-- A weight matrix transposed. -/
def tr (w : FVec F S128x128 .f32) : FVec F S128x128 .f32 :=
  transpose S128x128 [1, 0] w transposes_S128x128_S128x128_1_0

/-- The closing scores: for each scored pair, the inner product of the title row and the label row it names. -/
def score (outT : FVec F S200000x128 .f32) (outL : FVec F S50000x128 .f32) (x15 x16 : IVec S500000 32) : FVec F S500000 .f32 :=
  Host.reduceAdd (mulf (Host.gather gather_S200000x128_S500000x1_S500000x128_1_0_n_n_0_1_1128 outT (broadcastInDim S500000x1 ![0] bcast_S500000_S500000x1_0 (select (cmpi .slt x15 (broadcastInDim S500000 ![] bcast_S_S500000 (constantI S_ 32 0#32))) (addi x15 (broadcastInDim S500000 ![] bcast_S_S500000 (constantI S_ 32 200000#32))) x15))) (Host.gather gather_S50000x128_S500000x1_S500000x128_1_0_n_n_0_1_1128 outL (broadcastInDim S500000x1 ![0] bcast_S500000_S500000x1_0 (select (cmpi .slt x16 (broadcastInDim S500000 ![] bcast_S_S500000 (constantI S_ 32 0#32))) (addi x16 (broadcastInDim S500000 ![] bcast_S_S500000 (constantI S_ 32 50000#32))) x16)))) (constant S_ .f32 0x00000000#32) reducesTo_S500000x128_S500000_d1 h_S_

end Cert.KHost

end
-- ==== Proof.KHostResults.lean ====
/-
  What the kernel's program holds at its end: the two tiled stages' output arrays as their last write-backs leave
  them, and the closing scores as KHostDefs' score of those two arrays and the launch contents of the two pair arrays.
-/
import proofs.«430606_j11141145166498_3_alg».proof.Proof.Gen.KernelIdeal.Frame
import proofs.«430606_j11141145166498_3_alg».proof.Proof.KHostDefs

set_option maxRecDepth 16384

noncomputable section

namespace Cert.KHostResults

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KHost

variable {F : FTy → Type} [FloatOps F]
variable (m : (ℓ : Loc nD τ sig) → Buf (Elt F) ℓ) (ρ : Dev nD → PrngReg)

/-! ## The closing stretch writes none of the four arrays it reads from outside itself -/

/-- No operation of the closing stretch writes the label stage's output array. -/
theorem closing_keeps_v44 (c : Dev nD) : W10 m ρ c (Proc.devRef .tc main_v44) = W9 m ρ c (Proc.devRef .tc main_v44) :=
  StableHlo.after_of_forall_not_mem (b := Proc.devRef .tc main_v44) _ _ (List.forall_iff_forall_mem.mp (by
  simp only [hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- No operation of the closing stretch writes the title stage's output array. -/
theorem closing_keeps_v45 (c : Dev nD) : W10 m ρ c (Proc.devRef .tc main_v45) = W9 m ρ c (Proc.devRef .tc main_v45) :=
  StableHlo.after_of_forall_not_mem (b := Proc.devRef .tc main_v45) _ _ (List.forall_iff_forall_mem.mp (by
  simp only [hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- No operation of the closing stretch writes the first pair array. -/
theorem closing_keeps_arg15 (c : Dev nD) : W10 m ρ c (Proc.devRef .tc main_arg15) = W9 m ρ c (Proc.devRef .tc main_arg15) :=
  StableHlo.after_of_forall_not_mem (b := Proc.devRef .tc main_arg15) _ _ (List.forall_iff_forall_mem.mp (by
  simp only [hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- No operation of the closing stretch writes the second pair array. -/
theorem closing_keeps_arg16 (c : Dev nD) : W10 m ρ c (Proc.devRef .tc main_arg16) = W9 m ρ c (Proc.devRef .tc main_arg16) :=
  StableHlo.after_of_forall_not_mem (b := Proc.devRef .tc main_arg16) _ _ (List.forall_iff_forall_mem.mp (by
  simp only [hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The four reads of the closing stretch, at the contents it starts from -/

/-- The label stage's output array is not an array of the title stage, so the title stage leaves it as the label
    stage's last write-backs left it. -/
theorem at_v44 (c : Dev nD) : W9 m ρ c (Proc.devRef .tc main_v44) = (dat0 (V7 m ρ) c).arrAt 11 cfg0.N :=
  (W9_of_ne m ρ c main_v44 (by decide)).trans (W8_arr m ρ c 11)

/-- The title stage's output array as its last write-backs leave it. -/
theorem at_v45 (c : Dev nD) : W9 m ρ c (Proc.devRef .tc main_v45) = (dat1 (V8 m ρ) c).arrAt 6 cfg1.N :=
  W9_arr m ρ c 6

/-- The first pair array is as launched: the closing stretch does not write it, and at the end it is as launched. -/
theorem at_arg15 (c : Dev nD) : W9 m ρ c (Proc.devRef .tc main_arg15) = m ((c.tc : Thread nD τ).loc main_arg15) :=
  (closing_keeps_arg15 m ρ c).symm.trans (W10_main_arg15 m ρ c)

/-- The second pair array is as launched. -/
theorem at_arg16 (c : Dev nD) : W9 m ρ c (Proc.devRef .tc main_arg16) = m ((c.tc : Thread nD τ).loc main_arg16) :=
  (closing_keeps_arg16 m ρ c).symm.trans (W10_main_arg16 m ρ c)

/-! ## The results -/
theorem result_v44 (c : Dev nD) : W10 m ρ c (Proc.devRef .tc main_v44) = (dat0 (V7 m ρ) c).arrAt 11 cfg0.N :=
  (closing_keeps_v44 m ρ c).trans (at_v44 m ρ c)
theorem result_v45 (c : Dev nD) : W10 m ρ c (Proc.devRef .tc main_v45) = (dat1 (V8 m ρ) c).arrAt 6 cfg1.N :=
  (closing_keeps_v45 m ρ c).trans (at_v45 m ρ c)
theorem result_v61 (c : Dev nD) : W10 m ρ c (Proc.devRef .tc main_v61)
    = score ((dat1 (V8 m ρ) c).arrAt 6 cfg1.N) ((dat0 (V7 m ρ) c).arrAt 11 cfg0.N) (m ((c.tc : Thread nD τ).loc main_arg15)) (m ((c.tc : Thread nD τ).loc main_arg16)) := by
  rw [← at_v45 m ρ c, ← at_v44 m ρ c, ← at_arg15 m ρ c, ← at_arg16 m ρ c]
  show StableHlo.after hostOps2 (W9 m ρ c) (Proc.devRef .tc main_v61) = _
  generalize W9 m ρ c = V
  dsimp only [hostOps2]
  after_results_simp
  unfold Cert.KHost.score
  rfl

end Cert.KHostResults

end
-- ==== Proof.KHostReads.lean ====
/-
  What the kernel's program holds at the entry of each tiled stage, as the array operations of KHostDefs applied to
  the launch contents of the arguments.

  The program reaches the first stage through seven stretches of array operations. Each stretch's results are first
  read off over arbitrary contents before it; a buffer a stretch does not write is carried across it unchanged; the
  two are then chained from the launch contents to the stages' entries.
-/
import proofs.«430606_j11141145166498_3_alg».proof.Proof.Gen.KernelIdeal.Frame
import proofs.«430606_j11141145166498_3_alg».proof.Proof.KHostDefs

set_option maxRecDepth 16384

noncomputable section

namespace Cert.KHostReads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KHost

variable {F : FTy → Type} [FloatOps F]
variable (m : (ℓ : Loc nD τ sig) → Buf (Elt F) ℓ) (ρ : Dev nD → PrngReg)

/-! ## Walking a buffer back through a stretch of array operations -/

/-- A buffer that no operation of the named stretch writes holds after the stretch what it held before: the goal's
    left side is stepped back to the contents before the stretch. -/
local macro "through " ops:ident : tactic =>
  `(tactic| refine Eq.trans (StableHlo.after_of_forall_not_mem _ _ (List.forall_iff_forall_mem.mp (by
      simp only [$ops:ident, List.Forall, StableHlo.nullary_writes, StableHlo.unary_writes, StableHlo.binary_writes,
        StableHlo.ternary_writes, Finset.mem_singleton]
      repeat' apply And.intro
      all_goals exact StableHlo.devRef_ne_of_ne (by decide)))) ?_)

/-! ## A value and its buffer -/

/-- Reading back at the value's type what was stored at the buffer's type returns the value. -/
theorem ofBuf_toBuf {T : BufTy} (x : StableHlo.TRef sig T) (v : T.Contents (Elt F)) : x.ofBuf (x.toBuf v) = v := by
  obtain ⟨r, h, h2, h3⟩ := x
  subst h
  rfl

/-! ## What each stretch writes, over any contents before it -/

section Stretches
variable (V : Valuation τ sig (Elt F))

/-- The first stretch is lookup 0 of the table in argument 1 by the indices in argument 8. -/
theorem s0_v0 : StableHlo.after hostOps0 V (Proc.devRef .tc main_v0)
    = take0 (V (Proc.devRef .tc main_arg1)) (V (Proc.devRef .tc main_arg8)) := by
  -- at these literal buffers the change of type is between a type and itself
  have ea : ∀ h1 h2 h3, (StableHlo.TRef.of main_arg1 h1 h2 h3 : StableHlo.TRef sig ⟨S50000x128, .f32⟩).ofBuf (V (Proc.devRef .tc main_arg1)) = V (Proc.devRef .tc main_arg1) :=
    fun _ _ _ => rfl
  have eb : ∀ h1 h2 h3, (StableHlo.TRef.of main_arg8 h1 h2 h3 : StableHlo.TRef sig ⟨S50000, .i32⟩).ofBuf (V (Proc.devRef .tc main_arg8)) = V (Proc.devRef .tc main_arg8) :=
    fun _ _ _ => rfl
  have ey : ∀ h1 h2 h3 (X : (⟨S50000x128, .f32⟩ : BufTy).Contents (Elt F)),
      (StableHlo.TRef.of main_v0 h1 h2 h3 : StableHlo.TRef sig ⟨S50000x128, .f32⟩).toBuf X = X := fun _ _ _ _ => rfl
  dsimp only [hostOps0]
  after_results_simp
  simp only [ofBuf_toBuf, ea, eb, ey]
  unfold take0 mask0 col0
  rfl

/-- The second stretch is lookup 1 of the table in argument 0 by the indices in argument 9. -/
theorem s1_v1 : StableHlo.after hostOps0_1 V (Proc.devRef .tc main_v1)
    = take1 (V (Proc.devRef .tc main_arg0)) (V (Proc.devRef .tc main_arg9)) := by
  -- at these literal buffers the change of type is between a type and itself
  have ea : ∀ h1 h2 h3, (StableHlo.TRef.of main_arg0 h1 h2 h3 : StableHlo.TRef sig ⟨S200000x128, .f32⟩).ofBuf (V (Proc.devRef .tc main_arg0)) = V (Proc.devRef .tc main_arg0) :=
    fun _ _ _ => rfl
  have eb : ∀ h1 h2 h3, (StableHlo.TRef.of main_arg9 h1 h2 h3 : StableHlo.TRef sig ⟨S1000000, .i32⟩).ofBuf (V (Proc.devRef .tc main_arg9)) = V (Proc.devRef .tc main_arg9) :=
    fun _ _ _ => rfl
  have ey : ∀ h1 h2 h3 (X : (⟨S1000000x128, .f32⟩ : BufTy).Contents (Elt F)),
      (StableHlo.TRef.of main_v1 h1 h2 h3 : StableHlo.TRef sig ⟨S1000000x128, .f32⟩).toBuf X = X := fun _ _ _ _ => rfl
  dsimp only [hostOps0_1]
  after_results_simp
  simp only [ofBuf_toBuf, ea, eb, ey]
  unfold take1 mask1 col1
  rfl

/-- The third stretch sums the rows of lookup 1 into the destinations in argument 10 … -/
theorem s2_v4 : StableHlo.after hostOps0_2 V (Proc.devRef .tc main_v4)
    = agg1 (V (Proc.devRef .tc main_v1)) (V (Proc.devRef .tc main_arg10)) := by
  dsimp only [hostOps0_2]
  after_results_simp
  unfold agg1
  rfl

/-- … and takes the reciprocals of the destinations' counts. -/
theorem s2_v13 : StableHlo.after hostOps0_2 V (Proc.devRef .tc main_v13)
    = inv1 (F := F) (V (Proc.devRef .tc main_arg10)) := by
  dsimp only [hostOps0_2]
  after_results_simp
  unfold inv1 cnt1
  rfl

/-- The fourth stretch is lookup 2 of lookup 0's result by the indices in argument 13. -/
theorem s3_v14 : StableHlo.after hostOps0_3 V (Proc.devRef .tc main_v14)
    = take2 (V (Proc.devRef .tc main_v0)) (V (Proc.devRef .tc main_arg13)) := by
  -- at these literal buffers the change of type is between a type and itself
  have ea : ∀ h1 h2 h3, (StableHlo.TRef.of main_v0 h1 h2 h3 : StableHlo.TRef sig ⟨S50000x128, .f32⟩).ofBuf (V (Proc.devRef .tc main_v0)) = V (Proc.devRef .tc main_v0) :=
    fun _ _ _ => rfl
  have eb : ∀ h1 h2 h3, (StableHlo.TRef.of main_arg13 h1 h2 h3 : StableHlo.TRef sig ⟨S500000, .i32⟩).ofBuf (V (Proc.devRef .tc main_arg13)) = V (Proc.devRef .tc main_arg13) :=
    fun _ _ _ => rfl
  have ey : ∀ h1 h2 h3 (X : (⟨S500000x128, .f32⟩ : BufTy).Contents (Elt F)),
      (StableHlo.TRef.of main_v14 h1 h2 h3 : StableHlo.TRef sig ⟨S500000x128, .f32⟩).toBuf X = X := fun _ _ _ _ => rfl
  dsimp only [hostOps0_3]
  after_results_simp
  simp only [ofBuf_toBuf, ea, eb, ey]
  unfold take2 mask2 col2
  rfl

/-- The fifth stretch sums the rows of lookup 2 into the destinations in argument 14 … -/
theorem s4_v17 : StableHlo.after hostOps0_4 V (Proc.devRef .tc main_v17)
    = agg2 (V (Proc.devRef .tc main_v14)) (V (Proc.devRef .tc main_arg14)) := by
  dsimp only [hostOps0_4]
  after_results_simp
  unfold agg2
  rfl

/-- … and takes the reciprocals of the destinations' counts. -/
theorem s4_v26 : StableHlo.after hostOps0_4 V (Proc.devRef .tc main_v26)
    = inv2 (F := F) (V (Proc.devRef .tc main_arg14)) := by
  dsimp only [hostOps0_4]
  after_results_simp
  unfold inv2 cnt2
  rfl

/-- The sixth stretch is lookup 3 of lookup 0's result by the indices in argument 11. -/
theorem s5_v27 : StableHlo.after hostOps0_5 V (Proc.devRef .tc main_v27)
    = take3 (V (Proc.devRef .tc main_v0)) (V (Proc.devRef .tc main_arg11)) := by
  -- at these literal buffers the change of type is between a type and itself
  have ea : ∀ h1 h2 h3, (StableHlo.TRef.of main_v0 h1 h2 h3 : StableHlo.TRef sig ⟨S50000x128, .f32⟩).ofBuf (V (Proc.devRef .tc main_v0)) = V (Proc.devRef .tc main_v0) :=
    fun _ _ _ => rfl
  have eb : ∀ h1 h2 h3, (StableHlo.TRef.of main_arg11 h1 h2 h3 : StableHlo.TRef sig ⟨S1000000, .i32⟩).ofBuf (V (Proc.devRef .tc main_arg11)) = V (Proc.devRef .tc main_arg11) :=
    fun _ _ _ => rfl
  have ey : ∀ h1 h2 h3 (X : (⟨S1000000x128, .f32⟩ : BufTy).Contents (Elt F)),
      (StableHlo.TRef.of main_v27 h1 h2 h3 : StableHlo.TRef sig ⟨S1000000x128, .f32⟩).toBuf X = X := fun _ _ _ _ => rfl
  dsimp only [hostOps0_5]
  after_results_simp
  simp only [ofBuf_toBuf, ea, eb, ey]
  unfold take3 mask3 col3
  rfl

/-- The seventh stretch sums the rows of lookup 3 into the destinations in argument 12, … -/
theorem s6_v30 : StableHlo.after hostOps0_6 V (Proc.devRef .tc main_v30)
    = agg3 (V (Proc.devRef .tc main_v27)) (V (Proc.devRef .tc main_arg12)) := by
  dsimp only [hostOps0_6]
  after_results_simp
  unfold agg3
  rfl

/-- … takes the reciprocals of the destinations' counts, … -/
theorem s6_v39 : StableHlo.after hostOps0_6 V (Proc.devRef .tc main_v39)
    = inv3 (F := F) (V (Proc.devRef .tc main_arg12)) := by
  dsimp only [hostOps0_6]
  after_results_simp
  unfold inv3 cnt3
  rfl

/-- … and transposes the weight matrix in argument 2. -/
theorem s6_v40 : StableHlo.after hostOps0_6 V (Proc.devRef .tc main_v40)
    = tr (V (Proc.devRef .tc main_arg2)) := by
  dsimp only [hostOps0_6]
  after_results_simp
  unfold tr
  rfl

/-- … and transposes the weight matrix in argument 4. -/
theorem s6_v41 : StableHlo.after hostOps0_6 V (Proc.devRef .tc main_v41)
    = tr (V (Proc.devRef .tc main_arg4)) := by
  dsimp only [hostOps0_6]
  after_results_simp
  unfold tr
  rfl

/-- … and transposes the weight matrix in argument 5. -/
theorem s6_v42 : StableHlo.after hostOps0_6 V (Proc.devRef .tc main_v42)
    = tr (V (Proc.devRef .tc main_arg5)) := by
  dsimp only [hostOps0_6]
  after_results_simp
  unfold tr
  rfl

/-- … and transposes the weight matrix in argument 7. -/
theorem s6_v43 : StableHlo.after hostOps0_6 V (Proc.devRef .tc main_v43)
    = tr (V (Proc.devRef .tc main_arg7)) := by
  dsimp only [hostOps0_6]
  after_results_simp
  unfold tr
  rfl

end Stretches

/-! ## The arguments at the boundaries where they are read: still the launch contents -/
theorem main_arg0_at1 (c : Dev nD) : W1 m ρ c (Proc.devRef .tc main_arg0) = (m ((c.tc : Thread nD τ).loc main_arg0)) := by
  through hostOps0
  rfl
theorem main_arg9_at1 (c : Dev nD) : W1 m ρ c (Proc.devRef .tc main_arg9) = (m ((c.tc : Thread nD τ).loc main_arg9)) := by
  through hostOps0
  rfl
theorem main_arg10_at2 (c : Dev nD) : W2 m ρ c (Proc.devRef .tc main_arg10) = (m ((c.tc : Thread nD τ).loc main_arg10)) := by
  through hostOps0_1
  through hostOps0
  rfl
theorem main_arg13_at3 (c : Dev nD) : W3 m ρ c (Proc.devRef .tc main_arg13) = (m ((c.tc : Thread nD τ).loc main_arg13)) := by
  through hostOps0_2
  through hostOps0_1
  through hostOps0
  rfl
theorem main_arg14_at4 (c : Dev nD) : W4 m ρ c (Proc.devRef .tc main_arg14) = (m ((c.tc : Thread nD τ).loc main_arg14)) := by
  through hostOps0_3
  through hostOps0_2
  through hostOps0_1
  through hostOps0
  rfl
theorem main_arg11_at5 (c : Dev nD) : W5 m ρ c (Proc.devRef .tc main_arg11) = (m ((c.tc : Thread nD τ).loc main_arg11)) := by
  through hostOps0_4
  through hostOps0_3
  through hostOps0_2
  through hostOps0_1
  through hostOps0
  rfl
theorem main_arg12_at6 (c : Dev nD) : W6 m ρ c (Proc.devRef .tc main_arg12) = (m ((c.tc : Thread nD τ).loc main_arg12)) := by
  through hostOps0_5
  through hostOps0_4
  through hostOps0_3
  through hostOps0_2
  through hostOps0_1
  through hostOps0
  rfl
theorem main_arg2_at6 (c : Dev nD) : W6 m ρ c (Proc.devRef .tc main_arg2) = (m ((c.tc : Thread nD τ).loc main_arg2)) := by
  through hostOps0_5
  through hostOps0_4
  through hostOps0_3
  through hostOps0_2
  through hostOps0_1
  through hostOps0
  rfl
theorem main_arg4_at6 (c : Dev nD) : W6 m ρ c (Proc.devRef .tc main_arg4) = (m ((c.tc : Thread nD τ).loc main_arg4)) := by
  through hostOps0_5
  through hostOps0_4
  through hostOps0_3
  through hostOps0_2
  through hostOps0_1
  through hostOps0
  rfl
theorem main_arg5_at6 (c : Dev nD) : W6 m ρ c (Proc.devRef .tc main_arg5) = (m ((c.tc : Thread nD τ).loc main_arg5)) := by
  through hostOps0_5
  through hostOps0_4
  through hostOps0_3
  through hostOps0_2
  through hostOps0_1
  through hostOps0
  rfl
theorem main_arg7_at6 (c : Dev nD) : W6 m ρ c (Proc.devRef .tc main_arg7) = (m ((c.tc : Thread nD τ).loc main_arg7)) := by
  through hostOps0_5
  through hostOps0_4
  through hostOps0_3
  through hostOps0_2
  through hostOps0_1
  through hostOps0
  rfl
theorem main_arg3_at7 (c : Dev nD) : W7 m ρ c (Proc.devRef .tc main_arg3) = (m ((c.tc : Thread nD τ).loc main_arg3)) := by
  through hostOps0_6
  through hostOps0_5
  through hostOps0_4
  through hostOps0_3
  through hostOps0_2
  through hostOps0_1
  through hostOps0
  rfl
theorem main_arg6_at7 (c : Dev nD) : W7 m ρ c (Proc.devRef .tc main_arg6) = (m ((c.tc : Thread nD τ).loc main_arg6)) := by
  through hostOps0_6
  through hostOps0_5
  through hostOps0_4
  through hostOps0_3
  through hostOps0_2
  through hostOps0_1
  through hostOps0
  rfl
theorem main_arg0_at7 (c : Dev nD) : W7 m ρ c (Proc.devRef .tc main_arg0) = (m ((c.tc : Thread nD τ).loc main_arg0)) := by
  through hostOps0_6
  through hostOps0_5
  through hostOps0_4
  through hostOps0_3
  through hostOps0_2
  through hostOps0_1
  exact main_arg0_at1 m ρ c

/-! ## The computed arrays at the boundaries where they are read -/

/-- Lookup 0's result once written, … -/
theorem W1_v0 (c : Dev nD) : W1 m ρ c (Proc.devRef .tc main_v0) = take0 (m ((c.tc : Thread nD τ).loc main_arg1)) (m ((c.tc : Thread nD τ).loc main_arg8)) := s0_v0 (W0 m ρ c)
/-- … and carried, unwritten, to each later boundary that reads it. -/
theorem W3_v0 (c : Dev nD) : W3 m ρ c (Proc.devRef .tc main_v0) = take0 (m ((c.tc : Thread nD τ).loc main_arg1)) (m ((c.tc : Thread nD τ).loc main_arg8)) := by
  through hostOps0_2
  through hostOps0_1
  exact W1_v0 m ρ c
theorem W5_v0 (c : Dev nD) : W5 m ρ c (Proc.devRef .tc main_v0) = take0 (m ((c.tc : Thread nD τ).loc main_arg1)) (m ((c.tc : Thread nD τ).loc main_arg8)) := by
  through hostOps0_4
  through hostOps0_3
  exact W3_v0 m ρ c
theorem W7_v0 (c : Dev nD) : W7 m ρ c (Proc.devRef .tc main_v0) = take0 (m ((c.tc : Thread nD τ).loc main_arg1)) (m ((c.tc : Thread nD τ).loc main_arg8)) := by
  through hostOps0_6
  through hostOps0_5
  exact W5_v0 m ρ c

/-- Lookup 1's result, then its rows summed and the reciprocal counts, carried to the first stage's entry. -/
theorem W2_v1 (c : Dev nD) : W2 m ρ c (Proc.devRef .tc main_v1) = take1 (m ((c.tc : Thread nD τ).loc main_arg0)) (m ((c.tc : Thread nD τ).loc main_arg9)) :=
  (s1_v1 (W1 m ρ c)).trans (by rw [main_arg0_at1 m ρ c, main_arg9_at1 m ρ c])
theorem W3_v4 (c : Dev nD) : W3 m ρ c (Proc.devRef .tc main_v4) = agg1 (take1 (m ((c.tc : Thread nD τ).loc main_arg0)) (m ((c.tc : Thread nD τ).loc main_arg9))) (m ((c.tc : Thread nD τ).loc main_arg10)) :=
  (s2_v4 (W2 m ρ c)).trans (by rw [W2_v1 m ρ c, main_arg10_at2 m ρ c])
theorem W3_v13 (c : Dev nD) : W3 m ρ c (Proc.devRef .tc main_v13) = inv1 (F := F) (m ((c.tc : Thread nD τ).loc main_arg10)) :=
  (s2_v13 (W2 m ρ c)).trans (by rw [main_arg10_at2 m ρ c])
theorem W7_v4 (c : Dev nD) : W7 m ρ c (Proc.devRef .tc main_v4) = agg1 (take1 (m ((c.tc : Thread nD τ).loc main_arg0)) (m ((c.tc : Thread nD τ).loc main_arg9))) (m ((c.tc : Thread nD τ).loc main_arg10)) := by
  through hostOps0_6
  through hostOps0_5
  through hostOps0_4
  through hostOps0_3
  exact W3_v4 m ρ c
theorem W7_v13 (c : Dev nD) : W7 m ρ c (Proc.devRef .tc main_v13) = inv1 (F := F) (m ((c.tc : Thread nD τ).loc main_arg10)) := by
  through hostOps0_6
  through hostOps0_5
  through hostOps0_4
  through hostOps0_3
  exact W3_v13 m ρ c

/-- Lookup 2's result, then its rows summed and the reciprocal counts, carried to the first stage's entry. -/
theorem W4_v14 (c : Dev nD) : W4 m ρ c (Proc.devRef .tc main_v14) = take2 (take0 (m ((c.tc : Thread nD τ).loc main_arg1)) (m ((c.tc : Thread nD τ).loc main_arg8))) (m ((c.tc : Thread nD τ).loc main_arg13)) :=
  (s3_v14 (W3 m ρ c)).trans (by rw [W3_v0 m ρ c, main_arg13_at3 m ρ c])
theorem W5_v17 (c : Dev nD) : W5 m ρ c (Proc.devRef .tc main_v17) = agg2 (take2 (take0 (m ((c.tc : Thread nD τ).loc main_arg1)) (m ((c.tc : Thread nD τ).loc main_arg8))) (m ((c.tc : Thread nD τ).loc main_arg13))) (m ((c.tc : Thread nD τ).loc main_arg14)) :=
  (s4_v17 (W4 m ρ c)).trans (by rw [W4_v14 m ρ c, main_arg14_at4 m ρ c])
theorem W5_v26 (c : Dev nD) : W5 m ρ c (Proc.devRef .tc main_v26) = inv2 (F := F) (m ((c.tc : Thread nD τ).loc main_arg14)) :=
  (s4_v26 (W4 m ρ c)).trans (by rw [main_arg14_at4 m ρ c])
theorem W7_v17 (c : Dev nD) : W7 m ρ c (Proc.devRef .tc main_v17) = agg2 (take2 (take0 (m ((c.tc : Thread nD τ).loc main_arg1)) (m ((c.tc : Thread nD τ).loc main_arg8))) (m ((c.tc : Thread nD τ).loc main_arg13))) (m ((c.tc : Thread nD τ).loc main_arg14)) := by
  through hostOps0_6
  through hostOps0_5
  exact W5_v17 m ρ c
theorem W7_v26 (c : Dev nD) : W7 m ρ c (Proc.devRef .tc main_v26) = inv2 (F := F) (m ((c.tc : Thread nD τ).loc main_arg14)) := by
  through hostOps0_6
  through hostOps0_5
  exact W5_v26 m ρ c

/-- Lookup 3's result, then its rows summed, the reciprocal counts, and the transposed weight matrices. -/
theorem W6_v27 (c : Dev nD) : W6 m ρ c (Proc.devRef .tc main_v27) = take3 (take0 (m ((c.tc : Thread nD τ).loc main_arg1)) (m ((c.tc : Thread nD τ).loc main_arg8))) (m ((c.tc : Thread nD τ).loc main_arg11)) :=
  (s5_v27 (W5 m ρ c)).trans (by rw [W5_v0 m ρ c, main_arg11_at5 m ρ c])
theorem W7_v30 (c : Dev nD) : W7 m ρ c (Proc.devRef .tc main_v30) = agg3 (take3 (take0 (m ((c.tc : Thread nD τ).loc main_arg1)) (m ((c.tc : Thread nD τ).loc main_arg8))) (m ((c.tc : Thread nD τ).loc main_arg11))) (m ((c.tc : Thread nD τ).loc main_arg12)) :=
  (s6_v30 (W6 m ρ c)).trans (by rw [W6_v27 m ρ c, main_arg12_at6 m ρ c])
theorem W7_v39 (c : Dev nD) : W7 m ρ c (Proc.devRef .tc main_v39) = inv3 (F := F) (m ((c.tc : Thread nD τ).loc main_arg12)) :=
  (s6_v39 (W6 m ρ c)).trans (by rw [main_arg12_at6 m ρ c])
theorem W7_v40 (c : Dev nD) : W7 m ρ c (Proc.devRef .tc main_v40) = tr (m ((c.tc : Thread nD τ).loc main_arg2)) :=
  (s6_v40 (W6 m ρ c)).trans (by rw [main_arg2_at6 m ρ c])
theorem W7_v41 (c : Dev nD) : W7 m ρ c (Proc.devRef .tc main_v41) = tr (m ((c.tc : Thread nD τ).loc main_arg4)) :=
  (s6_v41 (W6 m ρ c)).trans (by rw [main_arg4_at6 m ρ c])
theorem W7_v42 (c : Dev nD) : W7 m ρ c (Proc.devRef .tc main_v42) = tr (m ((c.tc : Thread nD τ).loc main_arg5)) :=
  (s6_v42 (W6 m ρ c)).trans (by rw [main_arg5_at6 m ρ c])
theorem W7_v43 (c : Dev nD) : W7 m ρ c (Proc.devRef .tc main_v43) = tr (m ((c.tc : Thread nD τ).loc main_arg7)) :=
  (s6_v43 (W6 m ρ c)).trans (by rw [main_arg7_at6 m ρ c])

/-! ## The first tiled stage's operands -/
theorem entry0_v4 (c : Dev nD) : V7 m ρ c main_v4 = agg1 (take1 (m ((c.tc : Thread nD τ).loc main_arg0)) (m ((c.tc : Thread nD τ).loc main_arg9))) (m ((c.tc : Thread nD τ).loc main_arg10)) := W7_v4 m ρ c
theorem entry0_v13 (c : Dev nD) : V7 m ρ c main_v13 = inv1 (F := F) (m ((c.tc : Thread nD τ).loc main_arg10)) := W7_v13 m ρ c
theorem entry0_v0 (c : Dev nD) : V7 m ρ c main_v0 = take0 (m ((c.tc : Thread nD τ).loc main_arg1)) (m ((c.tc : Thread nD τ).loc main_arg8)) := W7_v0 m ρ c
theorem entry0_v17 (c : Dev nD) : V7 m ρ c main_v17 = agg2 (take2 (take0 (m ((c.tc : Thread nD τ).loc main_arg1)) (m ((c.tc : Thread nD τ).loc main_arg8))) (m ((c.tc : Thread nD τ).loc main_arg13))) (m ((c.tc : Thread nD τ).loc main_arg14)) := W7_v17 m ρ c
theorem entry0_v26 (c : Dev nD) : V7 m ρ c main_v26 = inv2 (F := F) (m ((c.tc : Thread nD τ).loc main_arg14)) := W7_v26 m ρ c
theorem entry0_v40 (c : Dev nD) : V7 m ρ c main_v40 = tr (m ((c.tc : Thread nD τ).loc main_arg2)) := W7_v40 m ρ c
theorem entry0_arg3 (c : Dev nD) : V7 m ρ c main_arg3 = (m ((c.tc : Thread nD τ).loc main_arg3)) := main_arg3_at7 m ρ c
theorem entry0_v41 (c : Dev nD) : V7 m ρ c main_v41 = tr (m ((c.tc : Thread nD τ).loc main_arg4)) := W7_v41 m ρ c
theorem entry0_v42 (c : Dev nD) : V7 m ρ c main_v42 = tr (m ((c.tc : Thread nD τ).loc main_arg5)) := W7_v42 m ρ c
theorem entry0_arg6 (c : Dev nD) : V7 m ρ c main_arg6 = (m ((c.tc : Thread nD τ).loc main_arg6)) := main_arg6_at7 m ρ c
theorem entry0_v43 (c : Dev nD) : V7 m ρ c main_v43 = tr (m ((c.tc : Thread nD τ).loc main_arg7)) := W7_v43 m ρ c

/-! ## The second tiled stage's operands

The first stage leaves every buffer that is none of its arrays as it was, and each of its input arrays as
entered. -/
theorem entry1_v30 (c : Dev nD) : V8 m ρ c main_v30 = agg3 (take3 (take0 (m ((c.tc : Thread nD τ).loc main_arg1)) (m ((c.tc : Thread nD τ).loc main_arg8))) (m ((c.tc : Thread nD τ).loc main_arg11))) (m ((c.tc : Thread nD τ).loc main_arg12)) :=
  (W8_of_ne m ρ c main_v30 (by decide)).trans (W7_v30 m ρ c)
theorem entry1_v39 (c : Dev nD) : V8 m ρ c main_v39 = inv3 (F := F) (m ((c.tc : Thread nD τ).loc main_arg12)) :=
  (W8_of_ne m ρ c main_v39 (by decide)).trans (W7_v39 m ρ c)
theorem entry1_arg0 (c : Dev nD) : V8 m ρ c main_arg0 = (m ((c.tc : Thread nD τ).loc main_arg0)) :=
  (W8_of_ne m ρ c main_arg0 (by decide)).trans (main_arg0_at7 m ρ c)
theorem entry1_v40 (c : Dev nD) : V8 m ρ c main_v40 = tr (m ((c.tc : Thread nD τ).loc main_arg2)) :=
  ((W8_arr m ρ c 5).trans (((dat0 (V7 m ρ) c).arrAt_in 5 rfl _).trans (A_eq0 (V7 m ρ) c 5))).trans (W7_v40 m ρ c)
theorem entry1_arg3 (c : Dev nD) : V8 m ρ c main_arg3 = (m ((c.tc : Thread nD τ).loc main_arg3)) :=
  ((W8_arr m ρ c 6).trans (((dat0 (V7 m ρ) c).arrAt_in 6 rfl _).trans (A_eq0 (V7 m ρ) c 6))).trans (main_arg3_at7 m ρ c)
theorem entry1_v41 (c : Dev nD) : V8 m ρ c main_v41 = tr (m ((c.tc : Thread nD τ).loc main_arg4)) :=
  ((W8_arr m ρ c 7).trans (((dat0 (V7 m ρ) c).arrAt_in 7 rfl _).trans (A_eq0 (V7 m ρ) c 7))).trans (W7_v41 m ρ c)

end Cert.KHostReads

end
-- ==== Proof.Spec.lean ====
/-
  The mathematics both programs compute, entry by entry, over the extended reals.

  A node's new feature row is a sum of "branches". One branch, at row r and column c, is
      (sum over k of A(r,k) * Wl(k,c)) + b(c) + (sum over k of X(r,k) * Wr(k,c)),
  where A is the mean of the neighbours' rows (the neighbour sum already divided by the neighbour count, the count
  taken as at least one), X the node's own rows, Wl and Wr the transposed weight matrices and b the bias. A label
  row is the positive part of the sum of two branches, a title row the positive part of one.

  The mean is written in two ways: the sum times a column of reciprocals of the count, or the sum divided by the
  count. They agree whenever the count is at least one, which is the one algebraic law of this certificate:
  x * (1 / c) = x / c for c ≥ 1 (c is then not zero, so both sides are x times the inverse of c).
-/
import Idealize.ShloMosaic.PureOps.Ideal
import Idealize.ShloMosaic.Lib.ValueIdx

noncomputable section

namespace Cert.Spec

open Idealize.ShloMosaic Idealize.ShloMosaic.ValueIdx

/-- One branch at row r, column c. -/
def branch {N : Nat} (A X : (⟨2, ![N, 128]⟩ : Shape).Idx → EReal) (Wl : (⟨2, ![128, 128]⟩ : Shape).Idx → EReal)
    (b : (⟨1, ![128]⟩ : Shape).Idx → EReal) (Wr : (⟨2, ![128, 128]⟩ : Shape).Idx → EReal) (r : Fin N) (c : Fin 128) : EReal :=
  (∑ k : Fin 128, A (ix2 r k) * Wl (ix2 k c)) + b (ix1 c) + ∑ k : Fin 128, X (ix2 r k) * Wr (ix2 k c)

/-- The neighbour sums scaled row by row by a column of factors. -/
def scaleBy {N : Nat} (agg : (⟨2, ![N, 128]⟩ : Shape).Idx → EReal) (inv : (⟨2, ![N, 1]⟩ : Shape).Idx → EReal) :
    (⟨2, ![N, 128]⟩ : Shape).Idx → EReal :=
  fun i => agg i * inv (ix2 (i 0) (0 : Fin 1))

/-- The neighbour sums divided row by row by a count. -/
def meanBy {N : Nat} (agg : (⟨2, ![N, 128]⟩ : Shape).Idx → EReal) (cnt : (⟨1, ![N]⟩ : Shape).Idx → EReal) :
    (⟨2, ![N, 128]⟩ : Shape).Idx → EReal :=
  fun i => Ideal.div (agg i) (cnt (ix1 (i 0)))

/-- A label row: the positive part of the sum of its two branches. -/
def labelOut {N : Nat} (A1 X A2 : (⟨2, ![N, 128]⟩ : Shape).Idx → EReal)
    (W1 : (⟨2, ![128, 128]⟩ : Shape).Idx → EReal) (b1 : (⟨1, ![128]⟩ : Shape).Idx → EReal) (W2 : (⟨2, ![128, 128]⟩ : Shape).Idx → EReal)
    (W3 : (⟨2, ![128, 128]⟩ : Shape).Idx → EReal) (b2 : (⟨1, ![128]⟩ : Shape).Idx → EReal) (W4 : (⟨2, ![128, 128]⟩ : Shape).Idx → EReal) :
    (⟨2, ![N, 128]⟩ : Shape).Idx → EReal :=
  fun i => max (branch A1 X W1 b1 W2 (i 0) (i 1) + branch A2 X W3 b2 W4 (i 0) (i 1)) 0

/-- A title row: the positive part of its one branch. -/
def titleOut {N : Nat} (A X : (⟨2, ![N, 128]⟩ : Shape).Idx → EReal)
    (W1 : (⟨2, ![128, 128]⟩ : Shape).Idx → EReal) (b1 : (⟨1, ![128]⟩ : Shape).Idx → EReal) (W2 : (⟨2, ![128, 128]⟩ : Shape).Idx → EReal) :
    (⟨2, ![N, 128]⟩ : Shape).Idx → EReal :=
  fun i => max (branch A X W1 b1 W2 (i 0) (i 1)) 0

/-- x * (1 / c) = x / c when c is at least one. -/
theorem mul_one_div (x c : EReal) (hc : 1 ≤ c) : x * Ideal.div 1 c = Ideal.div x c := by
  have h : c ≠ 0 := ne_of_gt (lt_of_lt_of_le zero_lt_one hc)
  unfold Ideal.div
  rw [if_neg h, if_neg h, one_mul]

/-- Scaling by the reciprocals of counts that are at least one is dividing by the counts. -/
theorem scaleBy_eq_meanBy {N : Nat} (agg : (⟨2, ![N, 128]⟩ : Shape).Idx → EReal) (inv : (⟨2, ![N, 1]⟩ : Shape).Idx → EReal)
    (cnt : (⟨1, ![N]⟩ : Shape).Idx → EReal) (hinv : ∀ r : Fin N, inv (ix2 r (0 : Fin 1)) = Ideal.div 1 (cnt (ix1 r)))
    (hcnt : ∀ r : Fin N, 1 ≤ cnt (ix1 r)) : scaleBy agg inv = meanBy agg cnt := by
  funext i
  unfold scaleBy meanBy
  rw [hinv (i 0)]
  exact mul_one_div _ _ (hcnt (i 0))

end Cert.Spec

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.RegionLabel.lean ====
/-
  What the first tiled stage leaves in its output array: every label row, entry by entry, as the positive part of
  the sum of its two branches (Spec.labelOut), the neighbour sums scaled by the stage's columns of reciprocals.
-/
import proofs.«430606_j11141145166498_3_alg».proof.Proof.Gen.KernelIdeal.Frame
import proofs.«430606_j11141145166498_3_alg».proof.Proof.Spec
import proofs.«430606_j11141145166498_3_alg».proof.Proof.LibPlainDot
import Idealize.ShloMosaic.Lib.Pipeline.Value
import Idealize.ShloMosaic.Lib.ValueIdx

set_option maxRecDepth 16384

noncomputable section

namespace Cert.RegionLabel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

theorem zero_offsets₂ : (![0, 0] : Fin 2 → Nat) = fun _ => 0 := funext fun a => by fin_cases a <;> rfl
theorem zero_offsets₁ : (![0] : Fin 1 → Nat) = fun _ => 0 := funext fun a => by fin_cases a; rfl

/-- A column of factors spread along the 128 lanes reads, at (p, q), the column's entry of row p. -/
theorem column_spread {α : Type} (x : S2000x1.Idx → α) (p : Fin 2000) (q : Fin 128) :
    broadcastTo S2000x128 x broadcasts_S2000x1_S2000x128 (ix2 p q) = x (ix2 p (0 : Fin 1)) :=
  broadcastTo_apply x _ (ix2 p q) (ix2 p (0 : Fin 1)) fun a => by
    match a with
    | ⟨0, _⟩ => rfl
    | ⟨1, _⟩ => rfl

/-- A bias vector viewed as one row and spread along the 2000 rows reads, at (p, q), the vector's entry q. -/
theorem row_spread {α : Type} (x : S128.Idx → α) (p : Fin 2000) (q : Fin 128) :
    broadcastTo S2000x128 (shapeCast S1x128 x shapeCasts_S128_S1x128) broadcasts_S1x128_S2000x128 (ix2 p q) = x (ix1 q) := by
  refine (broadcastTo_apply _ _ (ix2 p q) (ix2 (0 : Fin 1) q) fun a => by
    match a with
    | ⟨0, _⟩ => rfl
    | ⟨1, _⟩ => rfl).trans ?_
  refine shapeCast_apply x _ _ (ix1 q) ?_
  rw [Shape.rowMajor_val_one, Shape.rowMajor_val_two]
  show q.val = (0 : Nat) * 128 + q.val
  omega

/-- The value the body stores at (p, q), from the blocks it loaded. -/
theorem stored_apply (x0 : Vec Ideal S2000x128 .f32) (x1 : Vec Ideal S2000x1 .f32) (x2 : Vec Ideal S2000x128 .f32)
    (x3 : Vec Ideal S2000x128 .f32) (x4 : Vec Ideal S2000x1 .f32) (x5 : Vec Ideal S128x128 .f32) (x6 : Vec Ideal S128 .f32)
    (x7 x8 : Vec Ideal S128x128 .f32) (x9 : Vec Ideal S128 .f32) (x10 : Vec Ideal S128x128 .f32) (p : Fin 2000) (q : Fin 128) :
    k0_pay1 (k0_pay2 x2) (k0_pay3 x10) (k0_pay4 x0 x1 x2 x5 x7 x6) (k0_pay5 x3 x4 x8) x9 (ix2 p q)
      = max ((((∑ k : Fin 128, (x0 (ix2 p k) * x1 (ix2 p (0 : Fin 1))) * x5 (ix2 k q)) + x6 (ix1 q)) + ∑ k : Fin 128, x2 (ix2 p k) * x7 (ix2 k q))
           + ((((∑ k : Fin 128, (x3 (ix2 p k) * x4 (ix2 p (0 : Fin 1))) * x8 (ix2 k q)) + x9 (ix1 q)) + ∑ k : Fin 128, x2 (ix2 p k) * x10 (ix2 k q)))) 0 := by
  unfold k0_pay1 k0_pay3 k0_pay4 k0_pay5 k0_pay2
  simp only [shapeCast_self, maximumf_apply, addf_apply, mulf_apply, broadcast_apply, truncf_apply,
    Cert.LibPlainDot.matmul_zero_apply dot_S2000x128_S128x128_S2000x128_1_0_0_1_n_n rfl rfl rfl rfl rfl rfl none,
    column_spread, row_spread, Ideal.ofBits_def, Ideal.ofBits_zero_f32]

variable (V : (c : Dev nD) → (b : Ref sig .tc) → Buf (Elt Ideal) ((c : Thread nD τ).loc b))

/-- The block index of each of the twelve windows at a grid point: the row windows sit at block (t, 0), the weight
    and bias windows at block 0. -/
structure BlockIndices (t : Fin cfg0.N) : Prop where
  f0 : (win0_0.index t (0 : Fin 2) = t.val ∧ win0_0.index t (1 : Fin 2) = 0)
  f1 : (win0_1.index t (0 : Fin 2) = t.val ∧ win0_1.index t (1 : Fin 2) = 0)
  f2 : (win0_2.index t (0 : Fin 2) = t.val ∧ win0_2.index t (1 : Fin 2) = 0)
  f3 : (win0_3.index t (0 : Fin 2) = t.val ∧ win0_3.index t (1 : Fin 2) = 0)
  f4 : (win0_4.index t (0 : Fin 2) = t.val ∧ win0_4.index t (1 : Fin 2) = 0)
  f5 : (win0_5.index t (0 : Fin 2) = 0 ∧ win0_5.index t (1 : Fin 2) = 0)
  f6 : (win0_6.index t (0 : Fin 1) = 0)
  f7 : (win0_7.index t (0 : Fin 2) = 0 ∧ win0_7.index t (1 : Fin 2) = 0)
  f8 : (win0_8.index t (0 : Fin 2) = 0 ∧ win0_8.index t (1 : Fin 2) = 0)
  f9 : (win0_9.index t (0 : Fin 1) = 0)
  f10 : (win0_10.index t (0 : Fin 2) = 0 ∧ win0_10.index t (1 : Fin 2) = 0)
  f11 : (win0_11.index t (0 : Fin 2) = t.val ∧ win0_11.index t (1 : Fin 2) = 0)

/-- Decided over the 25 grid points. -/
theorem idx_facts : ∀ t : Fin cfg0.N, BlockIndices t := by
  have h : ∀ t : Fin cfg0.N, (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = t.val ∧ win0_2.index t (1 : Fin 2) = 0)
      ∧ (win0_3.index t (0 : Fin 2) = t.val ∧ win0_3.index t (1 : Fin 2) = 0)
      ∧ (win0_4.index t (0 : Fin 2) = t.val ∧ win0_4.index t (1 : Fin 2) = 0)
      ∧ (win0_5.index t (0 : Fin 2) = 0 ∧ win0_5.index t (1 : Fin 2) = 0)
      ∧ (win0_6.index t (0 : Fin 1) = 0)
      ∧ (win0_7.index t (0 : Fin 2) = 0 ∧ win0_7.index t (1 : Fin 2) = 0)
      ∧ (win0_8.index t (0 : Fin 2) = 0 ∧ win0_8.index t (1 : Fin 2) = 0)
      ∧ (win0_9.index t (0 : Fin 1) = 0)
      ∧ (win0_10.index t (0 : Fin 2) = 0 ∧ win0_10.index t (1 : Fin 2) = 0)
      ∧ (win0_11.index t (0 : Fin 2) = t.val ∧ win0_11.index t (1 : Fin 2) = 0) :=
    (by decide +kernel : ∀ t : Fin grid0.N, _)
  intro t
  obtain ⟨h0, h1, h2, h3, h4, h5, h6, h7, h8, h9, h10, h11⟩ := h t
  exact ⟨h0, h1, h2, h3, h4, h5, h6, h7, h8, h9, h10, h11⟩

theorem rows0_apply (c : Dev nD) (t : Fin cfg0.N) (p : Fin 2000) (k : Fin 128) (r : Fin 50000) (hr : r.val = t.val * 2000 + p.val) :
    (iblk0 V c 0 t : Vec Ideal S2000x128 .f32) (ix2 p k) = (V c main_v4 : S50000x128.Idx → EReal) (ix2 r k) := by
  obtain ⟨e0, e1⟩ := (idx_facts t).f0
  unfold iblk0
  rw [View.read_apply]
  show V c main_v4 _ = V c main_v4 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

theorem col1_apply (c : Dev nD) (t : Fin cfg0.N) (p : Fin 2000) (r : Fin 50000) (hr : r.val = t.val * 2000 + p.val) :
    (iblk0 V c 1 t : Vec Ideal S2000x1 .f32) (ix2 p (0 : Fin 1)) = (V c main_v13 : S50000x1.Idx → EReal) (ix2 r (0 : Fin 1)) := by
  obtain ⟨e0, e1⟩ := (idx_facts t).f1
  unfold iblk0
  rw [View.read_apply]
  show V c main_v13 _ = V c main_v13 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 1 + 1 * 0 = 0; rw [e1]

theorem rows2_apply (c : Dev nD) (t : Fin cfg0.N) (p : Fin 2000) (k : Fin 128) (r : Fin 50000) (hr : r.val = t.val * 2000 + p.val) :
    (iblk0 V c 2 t : Vec Ideal S2000x128 .f32) (ix2 p k) = (V c main_v0 : S50000x128.Idx → EReal) (ix2 r k) := by
  obtain ⟨e0, e1⟩ := (idx_facts t).f2
  unfold iblk0
  rw [View.read_apply]
  show V c main_v0 _ = V c main_v0 _
  congr 1
  funext a
  apply Fin.ext
  match a with
  | ⟨0, _⟩ => show win0_2.index t (0 : Fin 2) * 2000 + 1 * p.val = r.val; rw [e0, hr]; omega
  | ⟨1, _⟩ => show win0_2.index t (1 : Fin 2) * 128 + 1 * k.val = k.val; rw [e1]; omega

theorem rows3_apply (c : Dev nD) (t : Fin cfg0.N) (p : Fin 2000) (k : Fin 128) (r : Fin 50000) (hr : r.val = t.val * 2000 + p.val) :
    (iblk0 V c 3 t : Vec Ideal S2000x128 .f32) (ix2 p k) = (V c main_v17 : S50000x128.Idx → EReal) (ix2 r k) := by
  obtain ⟨e0, e1⟩ := (idx_facts t).f3
  unfold iblk0
  rw [View.read_apply]
  show V c main_v17 _ = V c main_v17 _
  congr 1
  funext a
  apply Fin.ext
  match a with
  | ⟨0, _⟩ => show win0_3.index t (0 : Fin 2) * 2000 + 1 * p.val = r.val; rw [e0, hr]; omega
  | ⟨1, _⟩ => show win0_3.index t (1 : Fin 2) * 128 + 1 * k.val = k.val; rw [e1]; omega

theorem col4_apply (c : Dev nD) (t : Fin cfg0.N) (p : Fin 2000) (r : Fin 50000) (hr : r.val = t.val * 2000 + p.val) :
    (iblk0 V c 4 t : Vec Ideal S2000x1 .f32) (ix2 p (0 : Fin 1)) = (V c main_v26 : S50000x1.Idx → EReal) (ix2 r (0 : Fin 1)) := by
  obtain ⟨e0, e1⟩ := (idx_facts t).f4
  unfold iblk0
  rw [View.read_apply]
  show V c main_v26 _ = V c main_v26 _
  congr 1
  funext a
  apply Fin.ext
  match a with
  | ⟨0, _⟩ => show win0_4.index t (0 : Fin 2) * 2000 + 1 * p.val = r.val; rw [e0, hr]; omega
  | ⟨1, _⟩ => show win0_4.index t (1 : Fin 2) * 1 + 1 * 0 = 0; rw [e1]

theorem mat5_apply (c : Dev nD) (t : Fin cfg0.N) (k q : Fin 128) :
    (iblk0 V c 5 t : Vec Ideal S128x128 .f32) (ix2 k q) = (V c main_v40 : S128x128.Idx → EReal) (ix2 k q) := by
  obtain ⟨e0, e1⟩ := (idx_facts t).f5
  unfold iblk0
  rw [View.read_apply]
  show V c main_v40 _ = V c main_v40 _
  congr 1
  funext a
  apply Fin.ext
  match a with
  | ⟨0, _⟩ => show win0_5.index t (0 : Fin 2) * 128 + 1 * k.val = k.val; rw [e0]; omega
  | ⟨1, _⟩ => show win0_5.index t (1 : Fin 2) * 128 + 1 * q.val = q.val; rw [e1]; omega

theorem vec6_apply (c : Dev nD) (t : Fin cfg0.N) (q : Fin 128) :
    (iblk0 V c 6 t : Vec Ideal S128 .f32) (ix1 q) = (V c main_arg3 : S128.Idx → EReal) (ix1 q) := by
  have e0 := (idx_facts t).f6
  unfold iblk0
  rw [View.read_apply]
  show V c main_arg3 _ = V c main_arg3 _
  congr 1
  funext a
  apply Fin.ext
  match a with
  | ⟨0, _⟩ => show win0_6.index t (0 : Fin 1) * 128 + 1 * q.val = q.val; rw [e0]; omega

theorem mat7_apply (c : Dev nD) (t : Fin cfg0.N) (k q : Fin 128) :
    (iblk0 V c 7 t : Vec Ideal S128x128 .f32) (ix2 k q) = (V c main_v41 : S128x128.Idx → EReal) (ix2 k q) := by
  obtain ⟨e0, e1⟩ := (idx_facts t).f7
  unfold iblk0
  rw [View.read_apply]
  show V c main_v41 _ = V c main_v41 _
  congr 1
  funext a
  apply Fin.ext
  match a with
  | ⟨0, _⟩ => show win0_7.index t (0 : Fin 2) * 128 + 1 * k.val = k.val; rw [e0]; omega
  | ⟨1, _⟩ => show win0_7.index t (1 : Fin 2) * 128 + 1 * q.val = q.val; rw [e1]; omega

theorem mat8_apply (c : Dev nD) (t : Fin cfg0.N) (k q : Fin 128) :
    (iblk0 V c 8 t : Vec Ideal S128x128 .f32) (ix2 k q) = (V c main_v42 : S128x128.Idx → EReal) (ix2 k q) := by
  obtain ⟨e0, e1⟩ := (idx_facts t).f8
  unfold iblk0
  rw [View.read_apply]
  show V c main_v42 _ = V c main_v42 _
  congr 1
  funext a
  apply Fin.ext
  match a with
  | ⟨0, _⟩ => show win0_8.index t (0 : Fin 2) * 128 + 1 * k.val = k.val; rw [e0]; omega
  | ⟨1, _⟩ => show win0_8.index t (1 : Fin 2) * 128 + 1 * q.val = q.val; rw [e1]; omega

theorem vec9_apply (c : Dev nD) (t : Fin cfg0.N) (q : Fin 128) :
    (iblk0 V c 9 t : Vec Ideal S128 .f32) (ix1 q) = (V c main_arg6 : S128.Idx → EReal) (ix1 q) := by
  have e0 := (idx_facts t).f9
  unfold iblk0
  rw [View.read_apply]
  show V c main_arg6 _ = V c main_arg6 _
  congr 1
  funext a
  apply Fin.ext
  match a with
  | ⟨0, _⟩ => show win0_9.index t (0 : Fin 1) * 128 + 1 * q.val = q.val; rw [e0]; omega

theorem mat10_apply (c : Dev nD) (t : Fin cfg0.N) (k q : Fin 128) :
    (iblk0 V c 10 t : Vec Ideal S128x128 .f32) (ix2 k q) = (V c main_v43 : S128x128.Idx → EReal) (ix2 k q) := by
  obtain ⟨e0, e1⟩ := (idx_facts t).f10
  unfold iblk0
  rw [View.read_apply]
  show V c main_v43 _ = V c main_v43 _
  congr 1
  funext a
  apply Fin.ext
  match a with
  | ⟨0, _⟩ => show win0_10.index t (0 : Fin 2) * 128 + 1 * k.val = k.val; rw [e0]; omega
  | ⟨1, _⟩ => show win0_10.index t (1 : Fin 2) * 128 + 1 * q.val = q.val; rw [e1]; omega

/-- The whole output array the stage is to leave. -/
abbrev target (c : Dev nD) : S50000x128.Idx → EReal :=
  Cert.Spec.labelOut (Cert.Spec.scaleBy (V c main_v4) (V c main_v13)) (V c main_v0) (Cert.Spec.scaleBy (V c main_v17) (V c main_v26))
    (V c main_v40) (V c main_arg3) (V c main_v41) (V c main_v42) (V c main_arg6) (V c main_v43)

/-- Block t of an array of the output's shape, read at (p, q), is the array at row 2000 t + p, column q. -/
theorem out_apply (G : S50000x128.Idx → EReal) (c : Dev nD) (t : Fin cfg0.N) (p : Fin 2000) (q : Fin 128) (r : Fin 50000)
    (hr : r.val = t.val * 2000 + p.val) :
    (((cfg0.win 11).blk t).view.read (Elt Ideal) G : Vec Ideal S2000x128 .f32) (ix2 p q) = G (ix2 r q) := by
  obtain ⟨e0, e1⟩ := (idx_facts t).f11
  rw [View.read_apply]
  show G _ = G _
  congr 1
  funext a
  apply Fin.ext
  match a with
  | ⟨0, _⟩ => show win0_11.index t (0 : Fin 2) * 2000 + 1 * p.val = r.val; rw [e0, hr]; omega
  | ⟨1, _⟩ => show win0_11.index t (1 : Fin 2) * 128 + 1 * q.val = q.val; rw [e1]; omega

/-- What grid point t writes back is block t of the target array. -/
theorem flushed_eq (c : Dev nD) (t : Fin cfg0.N) :
    (dat0 (F := Ideal) V c).flushed 11 t = ((cfg0.win 11).blk t).view.read (Elt Ideal) (target V c) := by
  show (cfg0.win 11).cut (grid0.coords t) ((dat0 V c).after 11 t) = _
  rw [after0_11]
  unfold out0_11
  rw [View.canon_unit_zero zero_offsets₂]
  simp only [View.ld_unit_zero (S := S2000x128) zero_offsets₂, View.ld_unit_zero (S := S2000x1) zero_offsets₂,
    View.ld_unit_zero (S := S128x128) zero_offsets₂, View.ld_unit_zero (S := S128) zero_offsets₁]
  funext j
  obtain ⟨p, q, rfl⟩ : ∃ (p : Fin 2000) (q : Fin 128), j = ix2 p q := ⟨j 0, j 1, eq_ix2 j⟩
  have ht : t.val < 25 := t.isLt
  obtain ⟨r, hr⟩ : ∃ r : Fin 50000, r.val = t.val * 2000 + p.val := ⟨⟨t.val * 2000 + p.val, by omega⟩, rfl⟩
  refine (stored_apply (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) p q).trans ?_
  refine Eq.trans ?_ (out_apply (target V c) c t p q r hr).symm
  simp only [fun k => rows0_apply V c t p k r hr, col1_apply V c t p r hr, fun k => rows2_apply V c t p k r hr,
    fun k => rows3_apply V c t p k r hr, col4_apply V c t p r hr, fun k => mat5_apply V c t k q, vec6_apply V c t q,
    fun k => mat7_apply V c t k q, fun k => mat8_apply V c t k q, vec9_apply V c t q, fun k => mat10_apply V c t k q]
  rfl

/-- An index of the array is in point t's block iff each coordinate is in the block's range on its axis. -/
theorem mem_blk (t : Fin cfg0.N) (i : S50000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v44).slice (win0_11.rect t)).set ↔ _
  rw [View.set_slice_whole, Rect.mem_set_unit]
  exact Iff.rfl

/-- Row r lies in block r / 2000: the 25 blocks of 2000 rows cover the 50000 rows. -/
theorem covered (i : S50000x128.Idx) :
    ∃ t : Fin cfg0.N, (cfg0.win 11).flush t = true ∧ i ∈ ((cfg0.win 11).blk t).view.set := by
  have hi0 : (i 0).val < 50000 := (i 0).isLt
  have hi1 : (i 1).val < 128 := (i 1).isLt
  have hlt : (i 0).val / 2000 < cfg0.N := by show (i 0).val / 2000 < 25; omega
  refine ⟨⟨(i 0).val / 2000, hlt⟩, flush0_11 _, ?_⟩
  obtain ⟨e0, e1⟩ := (idx_facts ⟨(i 0).val / 2000, hlt⟩).f11
  rw [mem_blk]
  intro a
  match a with
  | ⟨0, _⟩ =>
    show win0_11.index ⟨(i 0).val / 2000, hlt⟩ (0 : Fin 2) * 2000 ≤ (i 0).val ∧ (i 0).val < win0_11.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win0_11.index ⟨(i 0).val / 2000, hlt⟩ (1 : Fin 2) * 128 ≤ (i 1).val ∧ (i 1).val < win0_11.index ⟨(i 0).val / 2000, hlt⟩ (1 : Fin 2) * 128 + 128
    rw [e1]
    omega

/-- The stage's output array after its last write-back. -/
theorem label_final (c : Dev nD) :
    (dat0 (F := Ideal) V c).arrAt 11 cfg0.N
      = Cert.Spec.labelOut (Cert.Spec.scaleBy (V c main_v4) (V c main_v13)) (V c main_v0) (Cert.Spec.scaleBy (V c main_v17) (V c main_v26))
          (V c main_v40) (V c main_arg3) (V c main_v41) (V c main_v42) (V c main_arg6) (V c main_v43) :=
  (dat0 (F := Ideal) V c).arrAt_eq_of_cover 11 (target V c) (fun t _ => flushed_eq V c t) covered

end Cert.RegionLabel

end
-- ==== Proof.RegionTitle.lean ====
/-
  What the second tiled stage leaves in its output array: every title row, entry by entry, as the positive part of
  its one branch (Spec.titleOut), the neighbour sums scaled by the stage's column of reciprocals.

  Three steps. The stage's arithmetic on one block, read at an entry: two matrix products into zero (a change of
  number format is the identity on extended reals), the column of reciprocals read under every column, the bias
  read under every row, and the positive part. Then each block as rows of its array: at grid point t the three
  row-blocked inputs and the output are rows 4000 t … 4000 t + 3999, the two weight matrices and the bias are
  whole. Last, every row r lies in the block of point r / 4000, so the blocks fill the array.
-/
import proofs.«430606_j11141145166498_3_alg».proof.Proof.Gen.KernelIdeal.Frame
import proofs.«430606_j11141145166498_3_alg».proof.Proof.Spec
import proofs.«430606_j11141145166498_3_alg».proof.Proof.LibPlainDot
import Idealize.ShloMosaic.Lib.ValueLayout

set_option maxRecDepth 16384

noncomputable section

namespace Cert.RegionTitle

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-- A column [a,1] broadcast to [a,b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stage's arithmetic at one entry of a block: the positive part of the scaled neighbour rows times the first
    weights, plus the bias, plus the node's own rows times the second weights. -/
theorem pay_apply (x0 : Vec Ideal S4000x128 .f32) (x1 : Vec Ideal S4000x1 .f32) (x2 : Vec Ideal S4000x128 .f32)
    (x3 x5 : Vec Ideal S128x128 .f32) (x4 : Vec Ideal S128 .f32) (p : Fin 4000) (q : Fin 128) :
    k1_pay1 x0 x1 x2 x3 x5 x4 (ix2 p q)
      = max ((∑ k : Fin 128, (x0 (ix2 p k) * x1 (ix2 p (0 : Fin 1))) * x3 (ix2 k q)) + x4 (ix1 q)
          + ∑ k : Fin 128, x2 (ix2 p k) * x5 (ix2 k q)) 0 := by
  unfold k1_pay1
  simp only [shapeCast_self]
  refine (maximumf_apply _ _ _).trans ?_
  congr 1
  · refine (addf_apply _ _ _).trans ?_
    congr 1
    · refine (addf_apply _ _ _).trans ?_
      congr 1
      · -- the scaled neighbour rows times the first weights
        refine (Cert.LibPlainDot.matmul_zero_apply dot_S4000x128_S128x128_S4000x128_1_0_0_1_n_n rfl rfl rfl rfl rfl rfl
          none _ _ p q).trans ?_
        refine Finset.sum_congr rfl fun k _ => ?_
        show (x0 (ix2 p k) * broadcastTo S4000x128 x1 broadcasts_S4000x1_S4000x128 (ix2 p k)) * x3 (ix2 k q) = _
        rw [broadcastTo_a1_ab_apply]
      · -- the bias, one row read under every row
        exact (broadcastTo_1b_ab_apply _ _ p q).trans (shapeCast_a_1a_apply x4 _ 0 q)
    · -- the node's own rows times the second weights
      exact Cert.LibPlainDot.matmul_zero_apply dot_S4000x128_S128x128_S4000x128_1_0_0_1_n_n rfl rfl rfl rfl rfl rfl
        none _ _ p q
  · exact Ideal.ofBits_zero_f32

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the stage's output array ends holding: every title row as the positive part of its one branch. -/
abbrev titleOf (c : Dev nD) : S200000x128.Idx → EReal :=
  Cert.Spec.titleOut (Cert.Spec.scaleBy (V c main_v30) (V c main_v39)) (V c main_arg0) (V c main_v40) (V c main_arg3) (V c main_v41)

/-- The block indices over the grid: at point t the three row-blocked inputs and the output sit at block row t,
    column block 0; the two weight matrices and the bias are one block each. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 ∧ t.val < 50 :=
  (by decide +kernel : ∀ t : Fin grid1.N, _)

/-- Block t of the neighbour sums is rows 4000 t … 4000 t + 3999 of the array. -/
theorem blk0_apply (c : Dev nD) (t : Fin cfg1.N) (p : Fin 4000) (k : Fin 128) (r : Fin 200000)
    (hr : r.val = t.val * 4000 + p.val) :
    (iblk1 V c 0 t : Vec Ideal S4000x128 .f32) (ix2 p k) = (V c main_v30 : S200000x128.Idx → EReal) (ix2 r k) := by
  obtain ⟨e0, e1, -⟩ := idx_facts t
  show (V c main_v30 : S200000x128.Idx → EReal) (((cfg1.win 0).blk t).view.emb (ix2 p k)) = _
  refine congrArg _ (funext fun a => Fin.ext ?_)
  match a with
  | ⟨0, _⟩ => show win1_0.index t (0 : Fin 2) * 4000 + 1 * p.val = r.val; omega
  | ⟨1, _⟩ => show win1_0.index t (1 : Fin 2) * 128 + 1 * k.val = k.val; omega

/-- Block t of the column of reciprocals is rows 4000 t … 4000 t + 3999 of the column. -/
theorem blk1_apply (c : Dev nD) (t : Fin cfg1.N) (p : Fin 4000) (r : Fin 200000)
    (hr : r.val = t.val * 4000 + p.val) :
    (iblk1 V c 1 t : Vec Ideal S4000x1 .f32) (ix2 p (0 : Fin 1)) = (V c main_v39 : S200000x1.Idx → EReal) (ix2 r (0 : Fin 1)) := by
  obtain ⟨-, -, e0, e1, -⟩ := idx_facts t
  show (V c main_v39 : S200000x1.Idx → EReal) (((cfg1.win 1).blk t).view.emb (ix2 p (0 : Fin 1))) = _
  refine congrArg _ (funext fun a => Fin.ext ?_)
  match a with
  | ⟨0, _⟩ => show win1_1.index t (0 : Fin 2) * 4000 + 1 * p.val = r.val; omega
  | ⟨1, _⟩ => show win1_1.index t (1 : Fin 2) * 1 + 1 * 0 = 0; omega

/-- Block t of the nodes' own rows is rows 4000 t … 4000 t + 3999 of the array. -/
theorem blk2_apply (c : Dev nD) (t : Fin cfg1.N) (p : Fin 4000) (k : Fin 128) (r : Fin 200000)
    (hr : r.val = t.val * 4000 + p.val) :
    (iblk1 V c 2 t : Vec Ideal S4000x128 .f32) (ix2 p k) = (V c main_arg0 : S200000x128.Idx → EReal) (ix2 r k) := by
  obtain ⟨-, -, -, -, e0, e1, -⟩ := idx_facts t
  show (V c main_arg0 : S200000x128.Idx → EReal) (((cfg1.win 2).blk t).view.emb (ix2 p k)) = _
  refine congrArg _ (funext fun a => Fin.ext ?_)
  match a with
  | ⟨0, _⟩ => show win1_2.index t (0 : Fin 2) * 4000 + 1 * p.val = r.val; omega
  | ⟨1, _⟩ => show win1_2.index t (1 : Fin 2) * 128 + 1 * k.val = k.val; omega

/-- The first weight matrix's one block is the matrix. -/
theorem blk3_apply (c : Dev nD) (t : Fin cfg1.N) (k q : Fin 128) :
    (iblk1 V c 3 t : Vec Ideal S128x128 .f32) (ix2 k q) = (V c main_v40 : S128x128.Idx → EReal) (ix2 k q) := by
  obtain ⟨-, -, -, -, -, -, e0, e1, -⟩ := idx_facts t
  show (V c main_v40 : S128x128.Idx → EReal) (((cfg1.win 3).blk t).view.emb (ix2 k q)) = _
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias's one block is the bias. -/
theorem blk4_apply (c : Dev nD) (t : Fin cfg1.N) (q : Fin 128) :
    (iblk1 V c 4 t : Vec Ideal S128 .f32) (ix1 q) = (V c main_arg3 : S128.Idx → EReal) (ix1 q) := by
  obtain ⟨-, -, -, -, -, -, -, -, e0, -⟩ := idx_facts t
  show (V c main_arg3 : S128.Idx → EReal) (((cfg1.win 4).blk t).view.emb (ix1 q)) = _
  refine congrArg _ (funext fun a => Fin.ext ?_)
  match a with
  | ⟨0, _⟩ => show win1_4.index t (0 : Fin 1) * 128 + 1 * q.val = q.val; omega

/-- The second weight matrix's one block is the matrix. -/
theorem blk5_apply (c : Dev nD) (t : Fin cfg1.N) (k q : Fin 128) :
    (iblk1 V c 5 t : Vec Ideal S128x128 .f32) (ix2 k q) = (V c main_v41 : S128x128.Idx → EReal) (ix2 k q) := by
  obtain ⟨-, -, -, -, -, -, -, -, -, e0, e1, -⟩ := idx_facts t
  show (V c main_v41 : S128x128.Idx → EReal) (((cfg1.win 5).blk t).view.emb (ix2 k q)) = _
  refine congrArg _ (funext fun a => Fin.ext ?_)
  match a with
  | ⟨0, _⟩ => show win1_5.index t (0 : Fin 2) * 128 + 1 * k.val = k.val; omega
  | ⟨1, _⟩ => show win1_5.index t (1 : Fin 2) * 128 + 1 * q.val = q.val; omega

/-- A title row at one entry, the scaling written out. -/
theorem titleOut_apply {N : Nat} (agg : (⟨2, ![N, 128]⟩ : Shape).Idx → EReal) (inv : (⟨2, ![N, 1]⟩ : Shape).Idx → EReal)
    (X : (⟨2, ![N, 128]⟩ : Shape).Idx → EReal) (W1 : (⟨2, ![128, 128]⟩ : Shape).Idx → EReal)
    (b1 : (⟨1, ![128]⟩ : Shape).Idx → EReal) (W2 : (⟨2, ![128, 128]⟩ : Shape).Idx → EReal) (r : Fin N) (q : Fin 128) :
    Cert.Spec.titleOut (Cert.Spec.scaleBy agg inv) X W1 b1 W2 (ix2 r q)
      = max ((∑ k : Fin 128, (agg (ix2 r k) * inv (ix2 r (0 : Fin 1))) * W1 (ix2 k q)) + b1 (ix1 q)
          + ∑ k : Fin 128, X (ix2 r k) * W2 (ix2 k q)) 0 := rfl

/-- The stage's arithmetic on blocks that are the arrays' rows is the title row's entry. -/
theorem entry_eq (a0 : Vec Ideal S4000x128 .f32) (a1 : Vec Ideal S4000x1 .f32) (a2 : Vec Ideal S4000x128 .f32)
    (a3 : Vec Ideal S128x128 .f32) (a4 : Vec Ideal S128 .f32) (a5 : Vec Ideal S128x128 .f32)
    (A0 : S200000x128.Idx → EReal) (A1 : S200000x1.Idx → EReal) (A2 : S200000x128.Idx → EReal)
    (A3 : S128x128.Idx → EReal) (A4 : S128.Idx → EReal) (A5 : S128x128.Idx → EReal)
    (p : Fin 4000) (q : Fin 128) (r : Fin 200000)
    (h0 : ∀ k : Fin 128, a0 (ix2 p k) = A0 (ix2 r k)) (h1 : a1 (ix2 p (0 : Fin 1)) = A1 (ix2 r (0 : Fin 1)))
    (h2 : ∀ k : Fin 128, a2 (ix2 p k) = A2 (ix2 r k)) (h3 : ∀ k : Fin 128, a3 (ix2 k q) = A3 (ix2 k q))
    (h4 : a4 (ix1 q) = A4 (ix1 q)) (h5 : ∀ k : Fin 128, a5 (ix2 k q) = A5 (ix2 k q)) :
    k1_pay1 a0 a1 a2 a3 a5 a4 (ix2 p q) = Cert.Spec.titleOut (Cert.Spec.scaleBy A0 A1) A2 A3 A4 A5 (ix2 r q) := by
  rw [pay_apply, titleOut_apply, h1, h4]
  simp only [h0, h2, h3, h5]

/-- What point t writes back is block t of the title rows. -/
theorem flushed_eq (c : Dev nD) (t : Fin cfg1.N) :
    (dat1 (F := Ideal) V c).flushed 6 t = ((cfg1.win 6).blk t).view.read (Elt Ideal) (titleOf V c) := by
  show (cfg1.win 6).cut (grid1.coords t) ((dat1 (F := Ideal) V c).after 6 t) = _
  rw [after1_6]
  unfold out1_6
  rw [View.canon_unit_zero hz2]
  simp only [View.ld_unit_zero (S := S4000x128) hz2, View.ld_unit_zero (S := S4000x1) hz2,
    View.ld_unit_zero (S := S128x128) hz2, View.ld_unit_zero (S := S128) hz1]
  funext j
  obtain ⟨p, q, rfl⟩ : ∃ (p : Fin 4000) (q : Fin 128), j = ix2 p q := ⟨j 0, j 1, eq_ix2 j⟩
  obtain ⟨-, -, -, -, -, -, -, -, -, -, -, e0, e1, ht⟩ := idx_facts t
  have hp : p.val < 4000 := p.isLt
  let r : Fin 200000 := ⟨t.val * 4000 + p.val, by omega⟩
  have hr : r.val = t.val * 4000 + p.val := rfl
  have hemb : ((cfg1.win 6).blk t).view.emb (ix2 p q) = (ix2 r q : S200000x128.Idx) := by
    refine funext fun a => Fin.ext ?_
    match a with
    | ⟨0, _⟩ => show win1_6.index t (0 : Fin 2) * 4000 + 1 * p.val = r.val; omega
    | ⟨1, _⟩ => show win1_6.index t (1 : Fin 2) * 128 + 1 * q.val = q.val; omega
  show k1_pay1 (iblk1 V c 0 t) (iblk1 V c 1 t) (iblk1 V c 2 t) (iblk1 V c 3 t) (iblk1 V c 5 t) (iblk1 V c 4 t) (ix2 p q)
      = titleOf V c (((cfg1.win 6).blk t).view.emb (ix2 p q))
  rw [hemb]
  exact entry_eq (iblk1 V c 0 t) (iblk1 V c 1 t) (iblk1 V c 2 t) (iblk1 V c 3 t) (iblk1 V c 4 t) (iblk1 V c 5 t)
    (V c main_v30) (V c main_v39) (V c main_arg0) (V c main_v40) (V c main_arg3) (V c main_v41) p q r
    (fun k => blk0_apply V c t p k r hr) (blk1_apply V c t p r hr) (fun k => blk2_apply V c t p k r hr)
    (fun k => blk3_apply V c t k q) (blk4_apply V c t q) (fun k => blk5_apply V c t k q)

/-- An index of the array is in point t's block iff each coordinate is in the block's range on its axis. -/
theorem mem_blk (t : Fin cfg1.N) (i : S200000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v45).slice (win1_6.rect t)).set ↔ _
  rw [View.set_slice_whole, Rect.mem_set_unit]
  exact Iff.rfl

/-- Every block row is some point's. -/
theorem idx_onto : ∀ b : Fin 50, ∃ t : Fin cfg1.N, win1_6.index t (0 : Fin 2) = b.val ∧ win1_6.index t (1 : Fin 2) = 0 :=
  (by decide +kernel : ∀ b : Fin 50, ∃ t : Fin grid1.N, win1_6.index t (0 : Fin 2) = b.val ∧ win1_6.index t (1 : Fin 2) = 0)

/-- Every entry of the array lies in the block of its row's block row. -/
theorem cover (i : S200000x128.Idx) :
    ∃ t : Fin cfg1.N, (cfg1.win 6).flush t = true ∧ i ∈ ((cfg1.win 6).blk t).view.set := by
  have hi0 : (i 0).val < 200000 := (i 0).isLt
  have hi1 : (i 1).val < 128 := (i 1).isLt
  obtain ⟨t, q0, q1⟩ := idx_onto ⟨(i 0).val / 4000, by omega⟩
  have q0' : win1_6.index t (0 : Fin 2) = (i 0).val / 4000 := q0
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- The stage's output array after its last write-back. -/
theorem title_final (c : Dev nD) :
    (dat1 (F := Ideal) V c).arrAt 6 cfg1.N
      = Cert.Spec.titleOut (Cert.Spec.scaleBy (V c main_v30) (V c main_v39)) (V c main_arg0) (V c main_v40) (V c main_arg3) (V c main_v41) :=
  (dat1 (F := Ideal) V c).arrAt_eq_of_cover 6 (titleOf V c) (fun t _ => flushed_eq V c t) cover

end Cert.RegionTitle

end
-- ==== Proof.LibAllOnes.lean ====
/-
  Truth values that are all ones, and index words in a range.

  A reduction by `and` from a true initial value over an array of truth values that are all true is true (the
  converse of reading a `jnp.all` back). A 32-bit word that is at least zero and below `n` as a SIGNED number is
  below `n` unsigned; such a word is not negative, so the test "negative?" answers false on it and the tests
  "at least zero?" and "at most n − 1?" answer true.
-/
import Idealize.ShloMosaic.Lib.ReduceAll
import Idealize.ShloMosaic.Lib.StableHlo.Predicate
import Idealize.ShloMosaic.Lib.ValueIdx

noncomputable section

namespace Cert.LibAllOnes

open Idealize.ShloMosaic Idealize.ShloMosaic.StableHlo.Predicate

/-- A left fold by `and` from true over true values is true. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A `stablehlo.reduce` by `and` from a true initial value over an array that is true everywhere is true. -/
theorem reduce_andi_ones {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_ones x hx _

/-- A word in [0, n) as a signed number is below n unsigned. -/
theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  unfold IntOp.cmpi at h0 h1
  rw [ofBool_eq_one_iff] at h0 h1
  simp only [BitVec.slt, BitVec.sle, decide_eq_true_eq] at h0 h1
  have h32 := w.isLt
  unfold BitVec.toInt at h0 h1
  split at h1 <;> simp at h0 h1 <;> omega

/-- A word below 2³¹ is not negative: the signed test against zero answers false. -/
theorem slt_zero (w : BitVec 32) (hw : w.toNat < 2 ^ 31) : IntOp.cmpi .slt w (0#32) = 0#1 := by
  refine ValueIdx.eq_zero_of_ne_one fun h => ?_
  have := (slt_iff_toNat (a := w) (b := 0#32) hw (by decide)).1 h
  simp at this

/-- A word below 2³¹ is at least zero as a signed number. -/
theorem sge_zero (w : BitVec 32) (hw : w.toNat < 2 ^ 31) : IntOp.cmpi .sge w (0#32) = 1#1 :=
  (sge_iff_toNat (a := w) (b := 0#32) hw (by decide)).2 (by simp)

/-- A word at most `n` (below 2³¹) is at most `n` as a signed number. -/
theorem sle_ofNat (w : BitVec 32) (n : Nat) (hn : n < 2 ^ 31) (hw : w.toNat ≤ n) : IntOp.cmpi .sle w (BitVec.ofNat 32 n) = 1#1 := by
  have hb : (BitVec.ofNat 32 n).toNat = n := by simp [BitVec.toNat_ofNat]; omega
  exact (sle_iff_toNat (a := w) (b := BitVec.ofNat 32 n) (by omega) (by omega)).2 (by omega)

end Cert.LibAllOnes

end
-- ==== Proof.TakeEq.lean ====
/-
  A lookup whose indices all lie inside the table never uses its fill value.

  An index i with 0 ≤ i < n (as a signed 32-bit number) is not negative, so it is used as written; it passes the two
  tests "at least zero" and "at most n − 1", so the row's mask is true, and the selection between the looked-up row and
  the fill value takes the looked-up row.

  Every fact used holds at EVERY position of its array, so it survives a broadcast whatever position the broadcast
  reads: no position is ever computed.
-/
import proofs.«430606_j11141145166498_3_alg».proof.Proof.KHostDefs
import proofs.«430606_j11141145166498_3_alg».proof.Proof.LibAllOnes

noncomputable section

namespace Cert.TakeEq

open Idealize.ShloMosaic Cert.KernelIdeal Cert.KHost

/-- A property every entry of an array has is had by every entry of a broadcast of it: a broadcast only copies. -/
theorem bcast_forall {α : Type} {s t : Shape} {dims : Fin s.rank → Fin t.rank} (hb : s.BroadcastsInDim t dims)
    (x : s.Idx → α) (P : α → Prop) (hx : ∀ k, P (x k)) (j : t.Idx) : P (broadcastInDim t dims hb x j) := hx _

/-- "If negative, count from the end" leaves an array of non-negative words as written. -/
theorem sel_eq {s : Shape} (x z a : IVec s 32) (hz : ∀ k, z k = 0#32) (hx : ∀ k, (x k).toNat < 2 ^ 31) :
    select (cmpi .slt x z) a x = x := by
  funext k
  show Scalar.select (IntOp.cmpi .slt (x k) (z k)) (a k) (x k) = x k
  rw [hz k, Cert.LibAllOnes.slt_zero _ (hx k), ValueIdx.select_zero]

/-- The test "at least zero and at most M", reduced by `and` from true, is true where every word is at most M. -/
theorem inrange_ones {s t u : Shape} {axes : List (Fin s.rank)} (c z mx : IVec s 32) (M : Nat) (hM : M < 2 ^ 31)
    (hz : ∀ i, z i = 0#32) (hmx : ∀ i, mx i = BitVec.ofNat 32 M) (hc : ∀ i, (c i).toNat ≤ M)
    (init : IVec u 1) (hinit : ∀ k, init k = 1#1) (r : s.ReducesTo axes t) (hu : 0 < u.numel) (j : t.Idx) :
    Host.reduce IntOp.andi (andi (cmpi .sge c z) (cmpi .sle c mx)) init r hu j = 1#1 := by
  refine Cert.LibAllOnes.reduce_andi_ones _ init r hu j hinit fun i => ?_
  show IntOp.andi (IntOp.cmpi .sge (c i) (z i)) (IntOp.cmpi .sle (c i) (mx i)) = 1#1
  have hci := hc i
  rw [hz i, hmx i, Cert.LibAllOnes.sge_zero _ (by omega), Cert.LibAllOnes.sle_ofNat _ M hM hci]
  decide

/-- The lookup with fill, over any shapes: with every index in [0, N) the mask is true everywhere and the selection is
    the looked-up array. `M` is the last row, `N = M + 1`. -/
theorem take_gen {α : Type} {s1 s2 s3 t1 u : Shape} {axes : List (Fin s2.rank)}
    {d1 : Fin s1.rank → Fin s2.rank} (b1 : s1.BroadcastsInDim s2 d1)
    {d5 : Fin t1.rank → Fin s3.rank} (b5 : t1.BroadcastsInDim s3 d5)
    (r : s2.ReducesTo axes t1) (hu : 0 < u.numel)
    (x z0 nn : IVec s1 32) (z mx : IVec s2 32) (init : IVec u 1) (N M : Nat) (hNM : N = M + 1) (hN : N < 2 ^ 31)
    (hz0 : ∀ k, z0 k = 0#32) (hz : ∀ i, z i = 0#32) (hmx : ∀ i, mx i = BitVec.ofNat 32 M) (hinit : ∀ k, init k = 1#1)
    (h : ∀ k, IntOp.cmpi .sge (x k) (0#32) = 1#1 ∧ IntOp.cmpi .slt (x k) (BitVec.ofNat 32 N) = 1#1)
    (g fill : s3.Idx → α) :
    select (broadcastInDim s3 d5 b5 (Host.reduce IntOp.andi
        (andi (cmpi .sge (broadcastInDim s2 d1 b1 (select (cmpi .slt x z0) (addi x nn) x)) z)
          (cmpi .sle (broadcastInDim s2 d1 b1 (select (cmpi .slt x z0) (addi x nn) x)) mx)) init r hu)) g fill = g := by
  have hx : ∀ k, (x k).toNat < N := fun k => Cert.LibAllOnes.toNat_lt_of_signed _ N hN (h k).1 (h k).2
  rw [sel_eq x z0 (addi x nn) hz0 (fun k => by have := hx k; omega)]
  have hc : ∀ i, (broadcastInDim s2 d1 b1 x i).toNat ≤ M :=
    bcast_forall b1 x (fun w => w.toNat ≤ M) (fun k => by have := hx k; omega)
  funext i
  show Scalar.select (broadcastInDim s3 d5 b5 _ i) (g i) (fill i) = g i
  rw [bcast_forall b5 _ (fun w => w = 1#1) (inrange_ones _ z mx M (by omega) hz hmx hc init hinit r hu) i,
    ValueIdx.select_one]

variable {F : FTy → Type} [FloatOps F] [Cert.KernelIdeal.Facts]
open Cert.KernelIdeal.Facts₀ Cert.KernelIdeal.Facts

/-- Lookup 0 with every index inside the table is the plain lookup. -/
theorem take0_eq (t : FVec F S50000x128 .f32) (x : IVec S50000 32)
    (h : ∀ j : S50000.Idx, IntOp.cmpi .sge (x j) (0#32) = 1#1 ∧ IntOp.cmpi .slt (x j) (50000#32) = 1#1) :
    take0 t x = Host.gather gather_S50000x128_S50000x1_S50000x128_1_0_n_n_0_1_1128 t (col0 x) := by
  unfold take0 mask0 col0
  exact take_gen _ _ _ _ x _ _ _ _ _ 50000 49999 rfl (by norm_num) (fun _ => rfl) (fun _ => rfl) (fun _ => rfl)
    (fun _ => rfl) h _ _

/-- Lookup 1 with every index inside the table is the plain lookup. -/
theorem take1_eq (t : FVec F S200000x128 .f32) (x : IVec S1000000 32)
    (h : ∀ j : S1000000.Idx, IntOp.cmpi .sge (x j) (0#32) = 1#1 ∧ IntOp.cmpi .slt (x j) (200000#32) = 1#1) :
    take1 t x = Host.gather gather_S200000x128_S1000000x1_S1000000x128_1_0_n_n_0_1_1128 t (col1 x) := by
  unfold take1 mask1 col1
  exact take_gen _ _ _ _ x _ _ _ _ _ 200000 199999 rfl (by norm_num) (fun _ => rfl) (fun _ => rfl) (fun _ => rfl)
    (fun _ => rfl) h _ _

/-- Lookup 2 with every index inside the table is the plain lookup. -/
theorem take2_eq (t : FVec F S50000x128 .f32) (x : IVec S500000 32)
    (h : ∀ j : S500000.Idx, IntOp.cmpi .sge (x j) (0#32) = 1#1 ∧ IntOp.cmpi .slt (x j) (50000#32) = 1#1) :
    take2 t x = Host.gather gather_S50000x128_S500000x1_S500000x128_1_0_n_n_0_1_1128 t (col2 x) := by
  unfold take2 mask2 col2
  exact take_gen _ _ _ _ x _ _ _ _ _ 50000 49999 rfl (by norm_num) (fun _ => rfl) (fun _ => rfl) (fun _ => rfl)
    (fun _ => rfl) h _ _

/-- Lookup 3 with every index inside the table is the plain lookup. -/
theorem take3_eq (t : FVec F S50000x128 .f32) (x : IVec S1000000 32)
    (h : ∀ j : S1000000.Idx, IntOp.cmpi .sge (x j) (0#32) = 1#1 ∧ IntOp.cmpi .slt (x j) (50000#32) = 1#1) :
    take3 t x = Host.gather gather_S50000x128_S1000000x1_S1000000x128_1_0_n_n_0_1_1128 t (col3 x) := by
  unfold take3 mask3 col3
  exact take_gen _ _ _ _ x _ _ _ _ _ 50000 49999 rfl (by norm_num) (fun _ => rfl) (fun _ => rfl) (fun _ => rfl)
    (fun _ => rfl) h _ _

end Cert.TakeEq

end
-- ==== Proof.Bridge.lean ====
/-
  The kernel program's array operations outside its tiled stages are the reference's own, once every lookup's indices
  lie inside its table: a lookup with fill is then the plain lookup (TakeEq), and after that the two programs spell the
  same operations on the same arrays — the sums into destination rows, the counts, the transposed weights, the closing
  scores.
-/
import proofs.«430606_j11141145166498_3_alg».proof.Proof.KHostDefs
import proofs.«430606_j11141145166498_3_alg».proof.Proof.TakeEq
import proofs.«430606_j11141145166498_3_alg».proof.Proof.Gen.ReferenceIdeal.Read

noncomputable section

namespace Cert.Bridge

open Idealize.ShloMosaic Cert.KHost
open Cert.ReferenceIdeal.Read

variable {F : FTy → Type} [FloatOps F] [Cert.KernelIdeal.Facts]

/-- The range facts of one index array, as the precondition gives them. -/
abbrev InRange {s : Shape} (x : IVec s 32) (n : Nat) : Prop :=
  ∀ j : s.Idx, IntOp.cmpi .sge (x j) (0#32) = 1#1 ∧ IntOp.cmpi .slt (x j) (BitVec.ofNat 32 n) = 1#1

variable (x0 : (⟨Cert.ReferenceIdeal.S200000x128, .f32⟩ : BufTy).Contents (Elt F)) (x1 : (⟨Cert.ReferenceIdeal.S50000x128, .f32⟩ : BufTy).Contents (Elt F))
  (x2 x4 x5 x7 : (⟨Cert.ReferenceIdeal.S128x128, .f32⟩ : BufTy).Contents (Elt F))
  (x8 : (⟨Cert.ReferenceIdeal.S50000, .i32⟩ : BufTy).Contents (Elt F)) (x9 x10 x11 x12 : (⟨Cert.ReferenceIdeal.S1000000, .i32⟩ : BufTy).Contents (Elt F))
  (x13 x14 x15 x16 : (⟨Cert.ReferenceIdeal.S500000, .i32⟩ : BufTy).Contents (Elt F))

/-! ## The lookups and the sums into destination rows -/
theorem xlab_eq (h8 : InRange x8 50000) : take0 x1 x8 = val_main_v6 (F := F) x1 x8 := by
  rw [Cert.TakeEq.take0_eq x1 x8 h8]
  unfold col0 val_main_v6 val_main_v5 val_main_v4 val_main_v3 val_main_v2 val_main_c_0 val_main_v1 val_main_v0 val_main_c
  rfl
theorem agg1_eq (h9 : InRange x9 200000) : agg1 (take1 x0 x9) x10 = val_main_v16 (F := F) x0 x9 x10 := by
  rw [Cert.TakeEq.take1_eq x0 x9 h9]
  unfold agg1 col1 val_main_v16 val_main_v15 val_main_v14 val_main_cst val_main_v13 val_main_v12 val_main_v11 val_main_v10 val_main_v9 val_main_c_2 val_main_v8 val_main_v7 val_main_c_1
  rfl
theorem agg2_eq (h8 : InRange x8 50000) (h13 : InRange x13 50000) : agg2 (take2 (take0 x1 x8) x13) x14 = val_main_v43 (F := F) x1 x8 x13 x14 := by
  rw [Cert.TakeEq.take0_eq x1 x8 h8, Cert.TakeEq.take2_eq _ x13 h13]
  unfold agg2 col2 col0 val_main_v43 val_main_v42 val_main_v41 val_main_cst_8 val_main_v40 val_main_v39 val_main_v38 val_main_v37 val_main_v36 val_main_c_7 val_main_v35 val_main_v34 val_main_c_6 val_main_v6 val_main_v5 val_main_v4 val_main_v3 val_main_v2 val_main_c_0 val_main_v1 val_main_v0 val_main_c
  rfl
theorem agg3_eq (h8 : InRange x8 50000) (h11 : InRange x11 50000) : agg3 (take3 (take0 x1 x8) x11) x12 = val_main_v71 (F := F) x1 x8 x11 x12 := by
  rw [Cert.TakeEq.take0_eq x1 x8 h8, Cert.TakeEq.take3_eq _ x11 h11]
  unfold agg3 col3 col0 val_main_v71 val_main_v70 val_main_v69 val_main_cst_14 val_main_v68 val_main_v67 val_main_v66 val_main_v65 val_main_v64 val_main_c_13 val_main_v63 val_main_v62 val_main_c_12 val_main_v6 val_main_v5 val_main_v4 val_main_v3 val_main_v2 val_main_c_0 val_main_v1 val_main_v0 val_main_c
  rfl

/-! ## The counts -/
theorem cnt1_eq : cnt1 (F := F) x10 = val_main_v22 (F := F) x10 := by
  unfold cnt1 val_main_v22 val_main_v21 val_main_cst_5 val_main_v20 val_main_v19 val_main_v18 val_main_cst_4 val_main_v17 val_main_cst_3
  rfl
theorem cnt2_eq : cnt2 (F := F) x14 = val_main_v49 (F := F) x14 := by
  unfold cnt2 val_main_v49 val_main_v48 val_main_cst_11 val_main_v47 val_main_v46 val_main_v45 val_main_cst_10 val_main_v44 val_main_cst_9
  rfl
theorem cnt3_eq : cnt3 (F := F) x12 = val_main_v77 (F := F) x12 := by
  unfold cnt3 val_main_v77 val_main_v76 val_main_cst_17 val_main_v75 val_main_v74 val_main_v73 val_main_cst_16 val_main_v72 val_main_cst_15
  rfl

/-! ## The transposed weights -/
theorem tr_v26 : tr x2 = val_main_v26 (F := F) x2 := by
  unfold tr val_main_v26
  rfl
theorem tr_v31 : tr x4 = val_main_v31 (F := F) x4 := by
  unfold tr val_main_v31
  rfl
theorem tr_v53 : tr x5 = val_main_v53 (F := F) x5 := by
  unfold tr val_main_v53
  rfl
theorem tr_v58 : tr x7 = val_main_v58 (F := F) x7 := by
  unfold tr val_main_v58
  rfl
theorem tr_v81 : tr x2 = val_main_v81 (F := F) x2 := by
  unfold tr val_main_v81
  rfl
theorem tr_v86 : tr x4 = val_main_v86 (F := F) x4 := by
  unfold tr val_main_v86
  rfl

/-! ## The closing scores -/
theorem score_eq (x3 x6 : (⟨Cert.ReferenceIdeal.S128, .f32⟩ : BufTy).Contents (Elt F)) :
    val_main_v106 (F := F) x0 x1 x2 x3 x4 x5 x6 x7 x8 x9 x10 x11 x12 x13 x14 x15 x16
      = score (val_main_v89 (F := F) x0 x1 x2 x3 x4 x8 x11 x12) (val_main_v90 (F := F) x0 x1 x2 x3 x4 x5 x6 x7 x8 x9 x10 x13 x14) x15 x16 := by
  unfold score val_main_v106 val_main_cst_22 val_main_v105 val_main_v104 val_main_v103 val_main_v102 val_main_v101 val_main_v100 val_main_c_21 val_main_v99 val_main_v98 val_main_c_20 val_main_v97 val_main_v96 val_main_v95 val_main_v94 val_main_v93 val_main_c_19 val_main_v92 val_main_v91 val_main_c_18
  rfl

end Cert.Bridge

end
-- ==== Proof.MeanBridge.lean ====
/-
  The kernel program multiplies each neighbour sum by a column holding 1 / max(count, 1); the reference divides by
  max(count, 1). The count's maximum with one is at least one, so it is not zero and the two are the same number:
  x * (1 / c) = x / c (Spec.mul_one_div).
-/
import proofs.«430606_j11141145166498_3_alg».proof.Proof.KHostDefs
import proofs.«430606_j11141145166498_3_alg».proof.Proof.Spec
import Idealize.ShloMosaic.PureOps.Ideal.Laws
import Idealize.ShloMosaic.Lib.Pipeline.Value

noncomputable section

namespace Cert.MeanBridge

open Idealize.ShloMosaic Idealize.ShloMosaic.ValueIdx Cert.KernelIdeal Cert.KHost Cert.Spec

variable [Cert.KernelIdeal.Facts]

/-- The 32-bit pattern 0x3F800000 is the number one: its sign bit is clear, its exponent field is 127 (the bias), its
    fraction is zero, so it denotes 2 ^ 23 * 2 ^ (127 - 127 - 23). -/
theorem ofBits_one_f32 : Ideal.ofBits .f32 0x3F800000#32 = 1 := by
  have hneg : ((0x3F800000#32 : BitVec 32).extractLsb' (8 + 23) 1 == 1#1) = false := by decide
  have hex : ((0x3F800000#32 : BitVec 32).extractLsb' 23 8).toNat = 127 := by decide
  have hfr : ((0x3F800000#32 : BitVec 32).extractLsb' 0 23).toNat = 0 := by decide
  show Ideal.ieee 8 23 (0x3F800000#32 : BitVec 32) = 1
  unfold Ideal.ieee
  show (if ((0x3F800000#32 : BitVec 32).extractLsb' 23 8).toNat = 2 ^ 8 - 1 then _ else
      if ((0x3F800000#32 : BitVec 32).extractLsb' 23 8).toNat = 0 then _ else
      (((if ((0x3F800000#32 : BitVec 32).extractLsb' (8 + 23) 1 == 1#1) = true then (-1 : ℝ) else 1)
        * ((2 ^ 23 + ((0x3F800000#32 : BitVec 32).extractLsb' 0 23).toNat : Nat) : ℝ)
        * (2 : ℝ) ^ (((((0x3F800000#32 : BitVec 32).extractLsb' 23 8).toNat : Nat) : Int) - (2 ^ (8 - 1) - 1) - 23) : ℝ) : EReal)) = 1
  rw [hex, hfr, hneg, if_neg (by norm_num), if_neg (by norm_num)]
  norm_num

/-- A vector laid out as a one-column rectangle reads, at row r, the vector's entry r. -/
theorem bcast_col_apply {α : Type} {N : Nat} (hb : (⟨1, ![N]⟩ : Shape).BroadcastsInDim ⟨2, ![N, 1]⟩ ![0])
    (x : (⟨1, ![N]⟩ : Shape).Idx → α) (r : Fin N) :
    broadcastInDim ⟨2, ![N, 1]⟩ ![0] hb x (ix2 r (0 : Fin 1)) = x (ix1 r) :=
  broadcastInDim_apply _ hb x (ix2 r (0 : Fin 1)) (ix1 r) (fun a => match a with
    | ⟨0, _⟩ => by
      have := r.isLt
      show r.val = if N = 1 then 0 else r.val
      split <;> omega)

/-- The bridge at any number of rows: a column of 1 / max(s, 1) scales as max(s, 1) divides. `one` and `one'` are
    arrays that hold the number one at every position. -/
theorem scale_gen {N : Nat} (hb : (⟨1, ![N]⟩ : Shape).BroadcastsInDim ⟨2, ![N, 1]⟩ ![0])
    (agg : FVec Ideal ⟨2, ![N, 128]⟩ .f32) (one s one' : FVec Ideal ⟨1, ![N]⟩ .f32)
    (h1 : ∀ k, one k = 1) (h1' : ∀ k, one' k = 1) :
    scaleBy agg (broadcastInDim ⟨2, ![N, 1]⟩ ![0] hb (Host.divf one (maximumf s one'))) = meanBy agg (maximumf s one') := by
  refine scaleBy_eq_meanBy agg _ _ (fun r => ?_) (fun r => ?_)
  · rw [bcast_col_apply]
    show Ideal.div (one (ix1 r)) _ = _
    rw [h1]
  · show 1 ≤ max (s (ix1 r)) (one' (ix1 r))
    rw [h1']
    exact le_max_right _ _

/-- Title-to-label sums: scaled by the reciprocal column is divided by the count. -/
theorem scale1 (agg : FVec Ideal S50000x128 .f32) (dst : IVec S1000000 32) :
    scaleBy agg (inv1 (F := Ideal) dst) = meanBy agg (cnt1 (F := Ideal) dst) := by
  unfold inv1 cnt1
  exact scale_gen _ agg _ _ _ (fun _ => ofBits_one_f32) (fun _ => ofBits_one_f32)

/-- Label-to-label sums. -/
theorem scale2 (agg : FVec Ideal S50000x128 .f32) (dst : IVec S500000 32) :
    scaleBy agg (inv2 (F := Ideal) dst) = meanBy agg (cnt2 (F := Ideal) dst) := by
  unfold inv2 cnt2
  exact scale_gen _ agg _ _ _ (fun _ => ofBits_one_f32) (fun _ => ofBits_one_f32)

/-- Label-to-title sums. -/
theorem scale3 (agg : FVec Ideal S200000x128 .f32) (dst : IVec S1000000 32) :
    scaleBy agg (inv3 (F := Ideal) dst) = meanBy agg (cnt3 (F := Ideal) dst) := by
  unfold inv3 cnt3
  exact scale_gen _ agg _ _ _ (fun _ => ofBits_one_f32) (fun _ => ofBits_one_f32)

end Cert.MeanBridge

end
-- ==== Proof.RefSide.lean ====
/-
  The reference's two feature arrays, entry by entry, in the form of Spec: a label row is the positive part of the
  sum of its two branches and a title row the positive part of its one branch, each branch over the neighbour sums
  DIVIDED by the neighbour counts. Read off the reference's operations one at a time: a matrix product is the sum over
  the contracted index, a broadcast bias is the bias at the column, a broadcast count is the count at the row.
-/
import proofs.«430606_j11141145166498_3_alg».proof.Proof.Gen.ReferenceIdeal.Read
import proofs.«430606_j11141145166498_3_alg».proof.Proof.Spec
import Idealize.ShloMosaic.PureOps.Ideal.Laws

noncomputable section

namespace Cert.RefSide

open Idealize.ShloMosaic Idealize.ShloMosaic.ValueIdx Cert.ReferenceIdeal Cert.ReferenceIdeal.Read Cert.Spec

/-! ## The operations' index maps, in coordinates -/

theorem lidx_v27 (p : Fin 50000) (q k : Fin 128) : lidx_main_v27 (ix2 p q) k = ix2 p k :=
  funext fun a => match a with | ⟨0, _⟩ => rfl | ⟨1, _⟩ => rfl
theorem ridx_v27 (p : Fin 50000) (q k : Fin 128) : ridx_main_v27 (ix2 p q) k = ix2 k q :=
  funext fun a => match a with | ⟨0, _⟩ => rfl | ⟨1, _⟩ => rfl
theorem lidx_v32 (p : Fin 50000) (q k : Fin 128) : lidx_main_v32 (ix2 p q) k = ix2 p k :=
  funext fun a => match a with | ⟨0, _⟩ => rfl | ⟨1, _⟩ => rfl
theorem ridx_v32 (p : Fin 50000) (q k : Fin 128) : ridx_main_v32 (ix2 p q) k = ix2 k q :=
  funext fun a => match a with | ⟨0, _⟩ => rfl | ⟨1, _⟩ => rfl
theorem lidx_v54 (p : Fin 50000) (q k : Fin 128) : lidx_main_v54 (ix2 p q) k = ix2 p k :=
  funext fun a => match a with | ⟨0, _⟩ => rfl | ⟨1, _⟩ => rfl
theorem ridx_v54 (p : Fin 50000) (q k : Fin 128) : ridx_main_v54 (ix2 p q) k = ix2 k q :=
  funext fun a => match a with | ⟨0, _⟩ => rfl | ⟨1, _⟩ => rfl
theorem lidx_v59 (p : Fin 50000) (q k : Fin 128) : lidx_main_v59 (ix2 p q) k = ix2 p k :=
  funext fun a => match a with | ⟨0, _⟩ => rfl | ⟨1, _⟩ => rfl
theorem ridx_v59 (p : Fin 50000) (q k : Fin 128) : ridx_main_v59 (ix2 p q) k = ix2 k q :=
  funext fun a => match a with | ⟨0, _⟩ => rfl | ⟨1, _⟩ => rfl
theorem lidx_v82 (p : Fin 200000) (q k : Fin 128) : lidx_main_v82 (ix2 p q) k = ix2 p k :=
  funext fun a => match a with | ⟨0, _⟩ => rfl | ⟨1, _⟩ => rfl
theorem ridx_v82 (p : Fin 200000) (q k : Fin 128) : ridx_main_v82 (ix2 p q) k = ix2 k q :=
  funext fun a => match a with | ⟨0, _⟩ => rfl | ⟨1, _⟩ => rfl
theorem lidx_v87 (p : Fin 200000) (q k : Fin 128) : lidx_main_v87 (ix2 p q) k = ix2 p k :=
  funext fun a => match a with | ⟨0, _⟩ => rfl | ⟨1, _⟩ => rfl
theorem ridx_v87 (p : Fin 200000) (q k : Fin 128) : ridx_main_v87 (ix2 p q) k = ix2 k q :=
  funext fun a => match a with | ⟨0, _⟩ => rfl | ⟨1, _⟩ => rfl

theorem bidx_v29 (p : Fin 50000) (q : Fin 128) : idx_main_v28 (idx_main_v29 (ix2 p q)) = ix1 q :=
  funext fun a => match a with | ⟨0, _⟩ => rfl
theorem bidx_v56 (p : Fin 50000) (q : Fin 128) : idx_main_v55 (idx_main_v56 (ix2 p q)) = ix1 q :=
  funext fun a => match a with | ⟨0, _⟩ => rfl
theorem bidx_v84 (p : Fin 200000) (q : Fin 128) : idx_main_v83 (idx_main_v84 (ix2 p q)) = ix1 q :=
  funext fun a => match a with | ⟨0, _⟩ => rfl

theorem cidx_v24 (p : Fin 50000) (k : Fin 128) : idx_main_v23 (idx_main_v24 (ix2 p k)) = ix1 p :=
  funext fun a => match a with | ⟨0, _⟩ => rfl
theorem cidx_v51 (p : Fin 50000) (k : Fin 128) : idx_main_v50 (idx_main_v51 (ix2 p k)) = ix1 p :=
  funext fun a => match a with | ⟨0, _⟩ => rfl
theorem cidx_v79 (p : Fin 200000) (k : Fin 128) : idx_main_v78 (idx_main_v79 (ix2 p k)) = ix1 p :=
  funext fun a => match a with | ⟨0, _⟩ => rfl

/-! ## The means -/

theorem mean_tl (x0 : (⟨S200000x128, .f32⟩ : BufTy).Contents (Elt Ideal)) (x9 x10 : (⟨S1000000, .i32⟩ : BufTy).Contents (Elt Ideal)) (p : Fin 50000) (k : Fin 128) :
    val_main_v25 (F := Ideal) x0 x9 x10 (ix2 p k) = meanBy (val_main_v16 (F := Ideal) x0 x9 x10) (val_main_v22 (F := Ideal) x10) (ix2 p k) := by
  rw [val_main_v25_apply, val_main_v24_apply, val_main_v23_apply, cidx_v24]; rfl

theorem mean_ll (x1 : (⟨S50000x128, .f32⟩ : BufTy).Contents (Elt Ideal)) (x8 : (⟨S50000, .i32⟩ : BufTy).Contents (Elt Ideal)) (x13 x14 : (⟨S500000, .i32⟩ : BufTy).Contents (Elt Ideal)) (p : Fin 50000) (k : Fin 128) :
    val_main_v52 (F := Ideal) x1 x8 x13 x14 (ix2 p k) = meanBy (val_main_v43 (F := Ideal) x1 x8 x13 x14) (val_main_v49 (F := Ideal) x14) (ix2 p k) := by
  rw [val_main_v52_apply, val_main_v51_apply, val_main_v50_apply, cidx_v51]; rfl

theorem mean_rev (x1 : (⟨S50000x128, .f32⟩ : BufTy).Contents (Elt Ideal)) (x8 : (⟨S50000, .i32⟩ : BufTy).Contents (Elt Ideal)) (x11 x12 : (⟨S1000000, .i32⟩ : BufTy).Contents (Elt Ideal)) (p : Fin 200000) (k : Fin 128) :
    val_main_v80 (F := Ideal) x1 x8 x11 x12 (ix2 p k) = meanBy (val_main_v71 (F := Ideal) x1 x8 x11 x12) (val_main_v77 (F := Ideal) x12) (ix2 p k) := by
  rw [val_main_v80_apply, val_main_v79_apply, val_main_v78_apply, cidx_v79]; rfl

/-! ## The two arrays -/

/-- The reference's label rows. -/
theorem label_eq (x0 : (⟨S200000x128, .f32⟩ : BufTy).Contents (Elt Ideal)) (x1 : (⟨S50000x128, .f32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal))
    (x8 : (⟨S50000, .i32⟩ : BufTy).Contents (Elt Ideal)) (x9 x10 : (⟨S1000000, .i32⟩ : BufTy).Contents (Elt Ideal)) (x13 x14 : (⟨S500000, .i32⟩ : BufTy).Contents (Elt Ideal)) :
    val_main_v90 (F := Ideal) x0 x1 x2 x3 x4 x5 x6 x7 x8 x9 x10 x13 x14
      = labelOut (meanBy (val_main_v16 (F := Ideal) x0 x9 x10) (val_main_v22 (F := Ideal) x10)) (val_main_v6 (F := Ideal) x1 x8)
          (meanBy (val_main_v43 (F := Ideal) x1 x8 x13 x14) (val_main_v49 (F := Ideal) x14))
          (val_main_v26 (F := Ideal) x2) x3 (val_main_v31 (F := Ideal) x4) (val_main_v53 (F := Ideal) x5) x6 (val_main_v58 (F := Ideal) x7) := by
  funext i
  obtain ⟨p, q, rfl⟩ : ∃ (p : Fin 50000) (q : Fin 128), i = ix2 p q := ⟨i 0, i 1, eq_ix2 i⟩
  rw [val_main_v90_apply, val_main_v61_apply, val_main_v33_apply, val_main_v30_apply, val_main_v27_apply, val_main_v29_apply, val_main_v28_apply,
    val_main_v32_apply, val_main_v60_apply, val_main_v57_apply, val_main_v54_apply, val_main_v56_apply, val_main_v55_apply, val_main_v59_apply,
    val_main_call1_v0_apply, val_main_call1_cst_apply]
  simp only [lidx_v27, ridx_v27, lidx_v32, ridx_v32, lidx_v54, ridx_v54, lidx_v59, ridx_v59, bidx_v29, bidx_v56, mean_tl, mean_ll]
  show _ = max (branch _ _ _ _ _ p q + branch _ _ _ _ _ p q) 0
  unfold branch
  rw [Ideal.ofBits_def, Ideal.ofBits_zero_f32]
  rfl

/-- The reference's title rows. -/
theorem title_eq (x0 : (⟨S200000x128, .f32⟩ : BufTy).Contents (Elt Ideal)) (x1 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))
    (x8 : (⟨S50000, .i32⟩ : BufTy).Contents (Elt Ideal)) (x11 x12 : (⟨S1000000, .i32⟩ : BufTy).Contents (Elt Ideal)) :
    val_main_v89 (F := Ideal) x0 x1 x2 x3 x4 x8 x11 x12
      = titleOut (meanBy (val_main_v71 (F := Ideal) x1 x8 x11 x12) (val_main_v77 (F := Ideal) x12)) x0
          (val_main_v81 (F := Ideal) x2) x3 (val_main_v86 (F := Ideal) x4) := by
  funext i
  obtain ⟨p, q, rfl⟩ : ∃ (p : Fin 200000) (q : Fin 128), i = ix2 p q := ⟨i 0, i 1, eq_ix2 i⟩
  rw [val_main_v89_apply, val_main_v88_apply, val_main_v85_apply, val_main_v82_apply, val_main_v84_apply, val_main_v83_apply, val_main_v87_apply,
    val_main_call0_v0_apply, val_main_call0_cst_apply]
  simp only [lidx_v82, ridx_v82, lidx_v87, ridx_v87, bidx_v84, mean_rev]
  show _ = max (branch _ _ _ _ _ p q) 0
  unfold branch
  rw [Ideal.ofBits_def, Ideal.ofBits_zero_f32]
  rfl

end Cert.RefSide

end
-- ==== Proof.Equal.lean ====
/-
  The two programs' three results are the same functions of the arguments, when every lookup's indices lie inside
  its table: the kernel program's label and title rows (Spec's formulas over neighbour sums SCALED by reciprocal
  counts) are the reference's (the same formulas over neighbour sums DIVIDED by the counts), because the scaled and the
  divided sums agree (MeanBridge) and the arrays going in are the same (Bridge); the closing scores are one function of
  those two arrays in both programs.
-/
import proofs.«430606_j11141145166498_3_alg».proof.Proof.Bridge
import proofs.«430606_j11141145166498_3_alg».proof.Proof.MeanBridge
import proofs.«430606_j11141145166498_3_alg».proof.Proof.RefSide

noncomputable section

namespace Cert.Equal

open Idealize.ShloMosaic Cert.KHost Cert.Spec Cert.Bridge
open Cert.ReferenceIdeal.Read

variable [Cert.KernelIdeal.Facts]

/-- The kernel program's label rows, as functions of the arguments. -/
def kLabel (x0 : (⟨Cert.ReferenceIdeal.S200000x128, .f32⟩ : BufTy).Contents (Elt Ideal)) (x1 : (⟨Cert.ReferenceIdeal.S50000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal))
    (x8 : (⟨Cert.ReferenceIdeal.S50000, .i32⟩ : BufTy).Contents (Elt Ideal)) (x9 x10 : (⟨Cert.ReferenceIdeal.S1000000, .i32⟩ : BufTy).Contents (Elt Ideal)) (x13 x14 : (⟨Cert.ReferenceIdeal.S500000, .i32⟩ : BufTy).Contents (Elt Ideal)) : (⟨Cert.ReferenceIdeal.S50000x128, .f32⟩ : BufTy).Contents (Elt Ideal) :=
  labelOut (scaleBy (agg1 (F := Ideal) (take1 (F := Ideal) x0 x9) x10) (inv1 (F := Ideal) x10)) (take0 (F := Ideal) x1 x8)
    (scaleBy (agg2 (F := Ideal) (take2 (F := Ideal) (take0 (F := Ideal) x1 x8) x13) x14) (inv2 (F := Ideal) x14))
    (tr (F := Ideal) x2) x3 (tr (F := Ideal) x4) (tr (F := Ideal) x5) x6 (tr (F := Ideal) x7)

/-- The kernel program's title rows, as functions of the arguments. -/
def kTitle (x0 : (⟨Cert.ReferenceIdeal.S200000x128, .f32⟩ : BufTy).Contents (Elt Ideal)) (x1 : (⟨Cert.ReferenceIdeal.S50000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal))
    (x8 : (⟨Cert.ReferenceIdeal.S50000, .i32⟩ : BufTy).Contents (Elt Ideal)) (x11 x12 : (⟨Cert.ReferenceIdeal.S1000000, .i32⟩ : BufTy).Contents (Elt Ideal)) : (⟨Cert.ReferenceIdeal.S200000x128, .f32⟩ : BufTy).Contents (Elt Ideal) :=
  titleOut (scaleBy (agg3 (F := Ideal) (take3 (F := Ideal) (take0 (F := Ideal) x1 x8) x11) x12) (inv3 (F := Ideal) x12)) x0
    (tr (F := Ideal) x2) x3 (tr (F := Ideal) x4)

theorem label_match (x0 : (⟨Cert.ReferenceIdeal.S200000x128, .f32⟩ : BufTy).Contents (Elt Ideal)) (x1 : (⟨Cert.ReferenceIdeal.S50000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal))
    (x8 : (⟨Cert.ReferenceIdeal.S50000, .i32⟩ : BufTy).Contents (Elt Ideal)) (x9 x10 : (⟨Cert.ReferenceIdeal.S1000000, .i32⟩ : BufTy).Contents (Elt Ideal)) (x13 x14 : (⟨Cert.ReferenceIdeal.S500000, .i32⟩ : BufTy).Contents (Elt Ideal))
    (h8 : InRange x8 50000) (h9 : InRange x9 200000) (h13 : InRange x13 50000) :
    kLabel x0 x1 x2 x3 x4 x5 x6 x7 x8 x9 x10 x13 x14 = val_main_v90 (F := Ideal) x0 x1 x2 x3 x4 x5 x6 x7 x8 x9 x10 x13 x14 := by
  unfold kLabel
  rw [Cert.MeanBridge.scale1, Cert.MeanBridge.scale2, agg1_eq x0 x9 x10 h9, agg2_eq x1 x8 x13 x14 h8 h13, xlab_eq x1 x8 h8, cnt1_eq, cnt2_eq,
    tr_v26, tr_v31, tr_v53, tr_v58]
  exact (Cert.RefSide.label_eq x0 x1 x2 x3 x4 x5 x6 x7 x8 x9 x10 x13 x14).symm

theorem title_match (x0 : (⟨Cert.ReferenceIdeal.S200000x128, .f32⟩ : BufTy).Contents (Elt Ideal)) (x1 : (⟨Cert.ReferenceIdeal.S50000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal))
    (x8 : (⟨Cert.ReferenceIdeal.S50000, .i32⟩ : BufTy).Contents (Elt Ideal)) (x11 x12 : (⟨Cert.ReferenceIdeal.S1000000, .i32⟩ : BufTy).Contents (Elt Ideal))
    (h8 : InRange x8 50000) (h11 : InRange x11 50000) :
    kTitle x0 x1 x2 x3 x4 x8 x11 x12 = val_main_v89 (F := Ideal) x0 x1 x2 x3 x4 x8 x11 x12 := by
  unfold kTitle
  rw [Cert.MeanBridge.scale3, agg3_eq x1 x8 x11 x12 h8 h11, cnt3_eq, tr_v81, tr_v86]
  exact (Cert.RefSide.title_eq x0 x1 x2 x3 x4 x8 x11 x12).symm

theorem score_match (x0 : (⟨Cert.ReferenceIdeal.S200000x128, .f32⟩ : BufTy).Contents (Elt Ideal)) (x1 : (⟨Cert.ReferenceIdeal.S50000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal))
    (x8 : (⟨Cert.ReferenceIdeal.S50000, .i32⟩ : BufTy).Contents (Elt Ideal)) (x9 x10 x11 x12 : (⟨Cert.ReferenceIdeal.S1000000, .i32⟩ : BufTy).Contents (Elt Ideal)) (x13 x14 x15 x16 : (⟨Cert.ReferenceIdeal.S500000, .i32⟩ : BufTy).Contents (Elt Ideal))
    (h8 : InRange x8 50000) (h9 : InRange x9 200000) (h11 : InRange x11 50000) (h13 : InRange x13 50000) :
    score (F := Ideal) (kTitle x0 x1 x2 x3 x4 x8 x11 x12) (kLabel x0 x1 x2 x3 x4 x5 x6 x7 x8 x9 x10 x13 x14) x15 x16
      = val_main_v106 (F := Ideal) x0 x1 x2 x3 x4 x5 x6 x7 x8 x9 x10 x11 x12 x13 x14 x15 x16 := by
  rw [label_match x0 x1 x2 x3 x4 x5 x6 x7 x8 x9 x10 x13 x14 h8 h9 h13, title_match x0 x1 x2 x3 x4 x8 x11 x12 h8 h11]
  exact (score_eq x0 x1 x2 x4 x5 x7 x8 x9 x10 x11 x12 x13 x14 x15 x16 x3 x6).symm

end Cert.Equal

end
-- ==== Proof.KernelValue.lean ====
/-
  The kernel program's run, read: every weakly fair execution ends with the label rows, the title rows and the closing
  scores at their functions of the launch contents of the arguments (Equal.kLabel, Equal.kTitle, KHost.score of the
  two), the arguments unchanged — the run's boundary contents (KernelRun), the two tiled stages' output arrays (RegionLabel,
  RegionTitle) and the arrays the stages are entered with (KHostReads), put together.
-/
import proofs.«430606_j11141145166498_3_alg».proof.Proof.KernelRun
import proofs.«430606_j11141145166498_3_alg».proof.Proof.KHostResults
import proofs.«430606_j11141145166498_3_alg».proof.Proof.KHostReads
import proofs.«430606_j11141145166498_3_alg».proof.Proof.RegionLabel
import proofs.«430606_j11141145166498_3_alg».proof.Proof.RegionTitle
import proofs.«430606_j11141145166498_3_alg».proof.Proof.Equal

set_option maxRecDepth 16384

noncomputable section

namespace Cert.KernelValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KHost Cert.KHostReads Cert.KHostResults

variable (m : (ℓ : Loc nD τ sig) → Buf (Elt Ideal) ℓ) (ρ : Dev nD → PrngReg)

/-- The first tiled stage's output array, as a function of the arguments. -/
theorem label_value (c : Dev nD) :
    (dat0 (F := Ideal) (V7 m ρ) c).arrAt 11 cfg0.N = Cert.Equal.kLabel (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14)) := by
  rw [Cert.RegionLabel.label_final (V7 m ρ) c, entry0_v4, entry0_v13, entry0_v0, entry0_v17, entry0_v26, entry0_v40, entry0_arg3, entry0_v41,
    entry0_v42, entry0_arg6, entry0_v43]
  rfl

/-- The second tiled stage's output array, as a function of the arguments. -/
theorem title_value (c : Dev nD) :
    (dat1 (F := Ideal) (V8 m ρ) c).arrAt 6 cfg1.N = Cert.Equal.kTitle (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg11)) (m ((c.tc : Thread nD τ).loc main_arg12)) := by
  rw [Cert.RegionTitle.title_final (V8 m ρ) c, entry1_v30, entry1_v39, entry1_arg0, entry1_v40, entry1_arg3, entry1_v41]
  rfl

/-- The run, with every result named. -/
theorem run : θ_run defs (onTc (τ := τ) (main (F := Ideal))) ⟨m, fun _ => 0, ρ⟩ (fun r => ∀ c : Dev nD,
      r.2.mem ((c.tc : Thread nD τ).loc main_v61) = score (F := Ideal) (Cert.Equal.kTitle (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg11)) (m ((c.tc : Thread nD τ).loc main_arg12))) (Cert.Equal.kLabel (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14))) (m ((c.tc : Thread nD τ).loc main_arg15)) (m ((c.tc : Thread nD τ).loc main_arg16))
      ∧ r.2.mem ((c.tc : Thread nD τ).loc main_v45) = Cert.Equal.kTitle (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg11)) (m ((c.tc : Thread nD τ).loc main_arg12))
      ∧ r.2.mem ((c.tc : Thread nD τ).loc main_v44) = Cert.Equal.kLabel (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c).1.trans ((result_v61 m ρ c).trans (by rw [label_value, title_value])),
     (h c).2.1.trans ((result_v45 m ρ c).trans (title_value m ρ c)),
     (h c).2.2.1.trans ((result_v44 m ρ c).trans (label_value m ρ c)),
     (h c).2.2.2⟩)
    (Cert.KernelIdeal.KRun.run_results m ρ)

end Cert.KernelValue

end
-- ==== Proof.PreRanges.lean ====
/-
  The index ranges the precondition states, read back: it is a conjunction of "every entry of every float argument is
  finite" and, for each of the four index arrays that a lookup reads, "every entry is at least zero and below the
  table's number of rows"; a conjunction is true only if each part is, and an "all" over an array only if every
  entry passes.
-/
import proofs.«430606_j11141145166498_3_alg».proof.Pre_finite_inputs
import proofs.«430606_j11141145166498_3_alg».proof.Proof.Gen.Pre_finite_inputs
import Idealize.ShloMosaic.Lib.ReduceAll
import Idealize.ShloMosaic.Lib.StableHlo.Predicate

noncomputable section

namespace Cert.PreRanges

open Idealize.ShloMosaic Cert.Pre_finite_inputs

variable {F : FTy → Type} [FloatOps F]

/-- A rank-zero array has one position. -/
instance : Subsingleton S_.Idx := ⟨fun a b => funext fun d => d.elim0⟩

/-- One conjunct read back: where the "all" of "at least zero and below N" over an array is true, every entry passes
    both tests. The two bounds are arrays that hold 0 and N at every position. -/
theorem range_of_all {s t u : Shape} [Subsingleton t.Idx] {axes : List (Fin s.rank)} (x z nn : IVec s 32) (N : BitVec 32)
    (hz : ∀ k, z k = 0#32) (hnn : ∀ k, nn k = N) (init : IVec u 1) (r : s.ReducesTo axes t) (hu : 0 < u.numel) (j0 : t.Idx)
    (e : Host.reduce IntOp.andi (andi (cmpi .sge x z) (cmpi .slt x nn)) init r hu j0 = 1#1) (j : s.Idx) :
    IntOp.cmpi .sge (x j) (0#32) = 1#1 ∧ IntOp.cmpi .slt (x j) N = 1#1 := by
  have hj := Host.reduce_andi_all _ init r hu j0 e j
  have h2 := IntOp.andi_eq_one.1
    (show IntOp.andi (IntOp.cmpi .sge (x j) (z j)) (IntOp.cmpi .slt (x j) (nn j)) = 1#1 from hj)
  rw [hz j, hnn j] at h2
  exact h2

/-- Where the precondition holds, the four looked-up index arrays are in range. -/
theorem ranges_of_pre (a0 : FVec F S200000x128 .f32) (a1 : FVec F S50000x128 .f32) (a2 : FVec F S128x128 .f32) (a3 : FVec F S128 .f32)
    (a4 : FVec F S128x128 .f32) (a5 : FVec F S128x128 .f32) (a6 : FVec F S128 .f32) (a7 : FVec F S128x128 .f32)
    (a8 : IVec S50000 32) (a9 a10 a11 a12 : IVec S1000000 32) (a13 a14 a15 a16 : IVec S500000 32)
    (h : Cert.Pre_finite_inputs.fn (F := F) a0 a1 a2 a3 a4 a5 a6 a7 a8 a9 a10 a11 a12 a13 a14 a15 a16 = fun _ => 1#1) :
    (∀ j : S50000.Idx, IntOp.cmpi .sge (a8 j) (0#32) = 1#1 ∧ IntOp.cmpi .slt (a8 j) (50000#32) = 1#1)
    ∧ (∀ j : S1000000.Idx, IntOp.cmpi .sge (a9 j) (0#32) = 1#1 ∧ IntOp.cmpi .slt (a9 j) (200000#32) = 1#1)
    ∧ (∀ j : S1000000.Idx, IntOp.cmpi .sge (a11 j) (0#32) = 1#1 ∧ IntOp.cmpi .slt (a11 j) (50000#32) = 1#1)
    ∧ (∀ j : S500000.Idx, IntOp.cmpi .sge (a13 j) (0#32) = 1#1 ∧ IntOp.cmpi .slt (a13 j) (50000#32) = 1#1) := by
  have h0 := congrFun h (fun a => a.elim0)
  dsimp only [fn, fn_part1, fn_part2, fn_part3] at h0
  obtain ⟨h1, h13⟩ := IntOp.andi_eq_one.1 h0
  obtain ⟨h2, h11⟩ := IntOp.andi_eq_one.1 h1
  obtain ⟨h3, h9⟩ := IntOp.andi_eq_one.1 h2
  obtain ⟨_, h8⟩ := IntOp.andi_eq_one.1 h3
  exact ⟨range_of_all a8 _ _ _ (fun _ => rfl) (fun _ => rfl) _ _ _ _ h8,
    range_of_all a9 _ _ _ (fun _ => rfl) (fun _ => rfl) _ _ _ _ h9,
    range_of_all a11 _ _ _ (fun _ => rfl) (fun _ => rfl) _ _ _ _ h11,
    range_of_all a13 _ _ _ (fun _ => rfl) (fun _ => rfl) _ _ _ _ h13⟩

end Cert.PreRanges

end
-- ==== Proof.lean ====
/-
  The certificate of a two-stage graph layer: a label row and a title row are positive parts of sums of "branches"
  (neighbour means times weights, plus a bias, plus the node's own row times weights), and a score is the inner product
  of a title row and a label row. The kernel program looks rows up with a fill value for indices outside the table,
  multiplies neighbour sums by reciprocals of counts, and computes the rows in two tiled stages; the reference looks rows
  up plainly, divides by the counts and uses whole-array products. Under the precondition (every float argument finite —
  which this proof never uses — and every looked-up index inside its table) the two are the same functions of the
  arguments over the extended reals: an index inside the table never meets the fill value; a count's maximum with one
  is not zero, so multiplying by its reciprocal is dividing by it; a tiled product is the whole product row by row; and
  the sums are the same sums in the same order. The three frames are the programs' runs with the results dropped.
-/
import proofs.«430606_j11141145166498_3_alg».proof.Defs
import proofs.«430606_j11141145166498_3_alg».proof.Proof.Gen.Kernel
import proofs.«430606_j11141145166498_3_alg».proof.Proof.Gen.Kernel.Skeleton
import proofs.«430606_j11141145166498_3_alg».proof.Proof.Gen.Kernel.Launch
import proofs.«430606_j11141145166498_3_alg».proof.Proof.Gen.Kernel.Points
import proofs.«430606_j11141145166498_3_alg».proof.Proof.Gen.Kernel.Frame
import proofs.«430606_j11141145166498_3_alg».proof.Proof.Gen.KernelIdeal
import proofs.«430606_j11141145166498_3_alg».proof.Proof.Gen.KernelIdeal.Skeleton
import proofs.«430606_j11141145166498_3_alg».proof.Proof.Gen.KernelIdeal.Launch
import proofs.«430606_j11141145166498_3_alg».proof.Proof.Gen.KernelIdeal.Points
import proofs.«430606_j11141145166498_3_alg».proof.Proof.Gen.KernelIdeal.Frame
import proofs.«430606_j11141145166498_3_alg».proof.Proof.Gen.ReferenceIdeal
import proofs.«430606_j11141145166498_3_alg».proof.Proof.Gen.Pre_finite_inputs
import proofs.«430606_j11141145166498_3_alg».proof.Proof.Gen.ReferenceIdeal.Run
import proofs.«430606_j11141145166498_3_alg».proof.Proof.Gen.ReferenceIdeal.Read
import proofs.«430606_j11141145166498_3_alg».proof.Proof.KernelValue
import proofs.«430606_j11141145166498_3_alg».proof.Proof.Equal
import proofs.«430606_j11141145166498_3_alg».proof.Proof.PreRanges
import Idealize.ShloMosaic.Adequacy
import Idealize.ShloMosaic.Init

noncomputable section

namespace Cert.Proof

open Idealize.ShloMosaic Idealize.SL.Sem

/-- The kernel program as printed runs and leaves its arguments. -/
theorem frame_k : Cert.frame_Kernel := fun m ρ _ => Cert.Kernel.Gen.frame m ρ

/-- The idealized kernel program runs and leaves its arguments. -/
theorem frame_ki : Cert.frame_KernelIdeal := fun m ρ _ => Cert.KernelIdeal.Gen.frame m ρ

/-- The idealized reference runs and leaves its arguments: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories agreeing on the arguments the two idealized programs end with equal scores, title rows and label
    rows: the kernel program's run read as functions of the arguments, the reference's run read stage by stage, and the
    two sets of functions equal where the looked-up indices are in range, which the precondition says. -/
theorem algebraic : Cert.algebraic_KernelIdeal_ReferenceIdeal := by
  intro m ρ m' ρ' hpre hagree
  refine ⟨fun c => Cert.KHost.score (F := Ideal) (Cert.Equal.kTitle (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (Cert.Equal.kLabel (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.Equal.kTitle (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), fun c => Cert.Equal.kLabel (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), Cert.KernelValue.run m ρ, ?_⟩
  refine (θ_run Cert.ReferenceIdeal.defs _ _).mono (fun r h c => ?_) (Cert.ReferenceIdeal.Value.run (F := Ideal) m' ρ')
  obtain ⟨h8, h9, h11, h13⟩ := Cert.PreRanges.ranges_of_pre _ _ _ _ _ _ _ _ _ _ _ _ _ _ _ _ _ (hpre c)
  obtain ⟨e0, e1, e2, e3, e4, e5, e6, e7, e8, e9, e10, e11, e12, e13, e14, e15, e16⟩ := hagree c
  refine ⟨(h c).1.trans ?_, ((h c).2.1.trans (Cert.ReferenceIdeal.Read.val_main_v89_eq _ _ _ _ _ _ _ _)).trans ?_, (h c).2.2.1.trans ?_, (h c).2.2.2⟩
  · rw [Cert.ReferenceIdeal.Read.val_main_v106_eq, e0, e1, e2, e3, e4, e5, e6, e7, e8, e9, e10, e11, e12, e13, e14, e15, e16]
    exact (Cert.Equal.score_match _ _ _ _ _ _ _ _ _ _ _ _ _ _ _ _ _ h8 h9 h11 h13).symm
  · rw [e0, e1, e2, e3, e4, e8, e11, e12]
    exact (Cert.Equal.title_match _ _ _ _ _ _ _ _ h8 h11).symm
  · rw [Cert.ReferenceIdeal.Read.val_main_v90_eq, e0, e1, e2, e3, e4, e5, e6, e7, e8, e9, e10, e13, e14]
    exact (Cert.Equal.label_match _ _ _ _ _ _ _ _ _ _ _ _ _ h8 h9 h13).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
